-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64x40 .f32) (main_arg5 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg4
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S2x10000x10000 .f32) (main_arg2 : FVec F S128x64 .f32) (main_arg3 : FVec F S64 .f32) (main_arg4 : FVec F S64x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S10000x40 : Shape := ⟨2, ![10000, 40]⟩
abbrev S1x400x10000 : Shape := ⟨3, ![1, 400, 10000]⟩
abbrev S10000x64 : Shape := ⟨2, ![10000, 64]⟩
abbrev S400x10000 : Shape := ⟨2, ![400, 10000]⟩
abbrev S400x64 : Shape := ⟨2, ![400, 64]⟩
abbrev S400x40 : Shape := ⟨2, ![400, 40]⟩
abbrev S400 : Shape := ⟨1, ![400]⟩
abbrev S400x1 : Shape := ⟨2, ![400, 1]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x64, .f32⟩
  | .hbm, ⟨7, _⟩ => ⟨S1x40, .f32⟩
  | .hbm, ⟨8, _⟩ => ⟨S10000x40, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x40, .f32⟩
  | .local _ .vmem, ⟨6, _⟩ => ⟨S1x40, .f32⟩
  | .local _ .vmem, ⟨7, _⟩ => ⟨S10000x40, .f32⟩
  | .local _ .vmem, ⟨8, _⟩ => ⟨S10000x64, .f32⟩
  | .local _ .vmem, ⟨9, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_15 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg1 : BitVec 32 := BitVec.ofNat 32 (i 1).val
  let c400_i32 : BitVec 32 := 400#32
  let v29 : BitVec 32 := Scalar.muli arg1 c400_i32
  let v30 : Index := Scalar.indexCast v29
  let c0_13 : Index := 0#32
  ![v30.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10000x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

class Facts₀ : Prop where
  shapeCasts_S64_S1x64 : S64.ShapeCasts S1x64
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x40_S64x40_0_0 : ∀ a, (![0, 0] : Fin 2 → Nat) a + S64x40.size a ≤ S64x40.size a
  h_S64x40 : 0 < S64x40.numel
  h_S400x40 : 0 < S400x40.numel
  shapeCasts_S400x40_S400x40 : S400x40.ShapeCasts S400x40
  inb_S10000x40_S10000x40_0_0 : ∀ a, (![0, 0] : Fin 2 → Nat) a + S10000x40.size a ≤ S10000x40.size a
  h_S10000x40 : 0 < S10000x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x40_S400x40_1_0_0_1_n_n_wf : DotDims.WF S400x64 S64x40 S400x40 [1] [0] [0] [1] [] []
  dot_S400x10000_S10000x40_S400x40_1_0_0_1_n_n_wf : DotDims.WF S400x10000 S10000x40 S400x40 [1] [0] [0] [1] [] []
  hrank0 : 0 < grid0.rank
  k0_off1_inb : ∀ i : grid0.Coords, ∀ (k0_h2 : k0_cond2 i = 1#1), ∀ a, (k0_off1 i) a + S400x40.size a ≤ S10000x40.size a
  k0_off2_inb : ∀ i : grid0.Coords, ∀ (k0_h3 : k0_cond3 i = 1#1), ∀ a, (k0_off2 i) a + S400x40.size a ≤ S10000x40.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x40.size a ≤ S64x40.size a
  hwx0_4 : ∀ i : grid0.Coords, EltTy.bits .f32 = 32 ∨ (Rect.block (s := S64x40) S64x40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x40.size a ≤ S10000x40.size a
  hwx0_6 : ∀ i : grid0.Coords, EltTy.bits .f32 = 32 ∨ (Rect.block (s := S10000x40) S10000x40.size (cc0_transform_6 i) (hinb0_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x40_S400x40_1_0_0_1_n_n : DotDims S400x64 S64x40 S400x40 where
  lhsContracting := [1]
  rhsContracting := [0]
  lhsNonContracting := [0]
  rhsNonContracting := [1]
  lhsBatch := []
  rhsBatch := []
  wf := dot_S400x64_S64x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S10000x40.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x10000x10000 : Shape := ⟨3, ![1, 10000, 10000]⟩
abbrev S10000x10000 : Shape := ⟨2, ![10000, 10000]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x10000x10000, .f32⟩
  | .hbm, ⟨7, _⟩ => ⟨S10000x10000, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S1x10000x10000, .f32⟩
  | .hbm, ⟨17, _⟩ => ⟨S10000x10000, .f32⟩
  | .hbm, ⟨18, _⟩ => ⟨S10000x40, .f32⟩
  | .hbm, ⟨19, _⟩ => ⟨S10000x40, .f32⟩
  | .hbm, ⟨20, _⟩ => ⟨S1x40, .f32⟩
  | .hbm, ⟨21, _⟩ => ⟨S10000x40, .f32⟩
  | .hbm, ⟨22, _⟩ => ⟨S10000x40, .f32⟩
  | .hbm, ⟨23, _⟩ => ⟨S_, .f32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000x1, .f32⟩
  | .hbm, ⟨29, _⟩ => ⟨S10000x40, .f32⟩
  | .hbm, ⟨30, _⟩ => ⟨S10000x40, .f32⟩
  | .hbm, ⟨31, _⟩ => ⟨S10000x40, .f32⟩
  | .hbm, ⟨32, _⟩ => ⟨S_, .f32⟩
  | .hbm, ⟨33, _⟩ => ⟨S10000, .f32⟩
  | .hbm, ⟨34, _⟩ => ⟨S10000x1, .f32⟩
  | .hbm, ⟨35, _⟩ => ⟨S10000x1, .f32⟩
  | .hbm, ⟨36, _⟩ => ⟨S10000x40, .f32⟩
  | .hbm, ⟨37, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_cst : Ref sig .tc := ⟨.hbm, 23, rfl⟩
abbrev main_call1_v0 : Ref sig .tc := ⟨.hbm, 24, rfl⟩
abbrev main_call1_cst_0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_cst_1 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_v15 : Ref sig .tc := ⟨.hbm, 37, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  slices_S2x10000x10000_S1x10000x10000_1_0_0 : S2x10000x10000.Slices ![1, 0, 0] S1x10000x10000
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.Bits.Spec.lean ====
/-
  The kernel's result as ONE function of its argument arrays, at any float instance.

  The kernel walks a grid of 2 × 25 points. In the first phase (25 points) it forms, block of 400 rows by block,
  the rows of  HW = relu(adj₀ · (x · W1) + b1) · W2  into a scratch buffer (the product x · W1 is formed once, at the
  first point, into another scratch buffer). In the second phase (25 points) it forms, block of 400 rows by block,
  the rows of  log_softmax(adj₁ · HW + b2)  into its output buffer, which is written back once, after the last point.
  Each block is one of the body's three stored values (`k0_pay1`, `k0_pay2`, `k0_pay3`) applied to the
  corresponding 400 rows of the adjacency layer; the functions below paste the blocks together.
-/
import proofs.«146803_g30416958390823_retrytranche2_1219_23_alg».proof.Proof.Gen.Kernel.Skeleton
import Idealize.ShloMosaic.Lib.ValueIdx

noncomputable section

namespace Cert.Kernel.Hand

open Idealize.ShloMosaic Idealize.ShloMosaic.ValueIdx Cert.Kernel Cert.Kernel.Gen

variable {F : FTy → Type} [FloatOps F]

/-- Rows `[400 i, 400 i + 400)` of layer `p` of the adjacency stack, as a `1 × 400 × 10000` block. -/
def adjRows (adj : Vec F S2x10000x10000 .f32) (p : Fin 2) (i : Fin 25) : Vec F S1x400x10000 .f32 :=
  fun y => adj (ix3 p ⟨400 * i.val + (y 1).val, by
    have h1 : (y 1).val < 400 := (y 1).isLt
    have h2 := i.isLt
    omega⟩ ⟨(y 2).val, (y 2).isLt⟩)

/-- The block of 400 rows that holds row `y 0` of a `10000 × 40` array. -/
def rowBlk (y : S10000x40.Idx) : Fin 25 := ⟨(y 0).val / 400, by
  have h : (y 0).val < 10000 := (y 0).isLt
  omega⟩

/-- The position of index `y` of a `10000 × 40` array inside its block of 400 rows. -/
def rowLoc (y : S10000x40.Idx) : S400x40.Idx :=
  ix2 (⟨(y 0).val % 400, Nat.mod_lt _ (by decide)⟩ : Fin 400) (⟨(y 1).val, (y 1).isLt⟩ : Fin 40)

/-- `x · W1`: what the first point leaves in the first scratch buffer. -/
def xw (x : Vec F S10000x128 .f32) (w1 : Vec F S128x64 .f32) : Vec F S10000x64 .f32 := k0_pay1 x w1

/-- Rows `[400 i, 400 i + 400)` of `relu(adj₀ · (x · W1) + b1) · W2`: what point `i` of the first phase stores. -/
def hwRows (x : Vec F S10000x128 .f32) (adj : Vec F S2x10000x10000 .f32) (w1 : Vec F S128x64 .f32)
    (b1r : Vec F S1x64 .f32) (w2 : Vec F S64x40 .f32) (i : Fin 25) : Vec F S400x40 .f32 :=
  k0_pay2 (adjRows adj 0 i) (xw x w1) b1r w2

/-- `relu(adj₀ · (x · W1) + b1) · W2`, whole: what the second scratch buffer holds after the first phase. -/
def hw (x : Vec F S10000x128 .f32) (adj : Vec F S2x10000x10000 .f32) (w1 : Vec F S128x64 .f32)
    (b1r : Vec F S1x64 .f32) (w2 : Vec F S64x40 .f32) : Vec F S10000x40 .f32 :=
  fun y => hwRows x adj w1 b1r w2 (rowBlk y) (rowLoc y)

/-- Rows `[400 i, 400 i + 400)` of `log_softmax(adj₁ · HW + b2)`: what point `i` of the second phase stores. -/
def lsRows (x : Vec F S10000x128 .f32) (adj : Vec F S2x10000x10000 .f32) (w1 : Vec F S128x64 .f32)
    (b1r : Vec F S1x64 .f32) (w2 : Vec F S64x40 .f32) (b2r : Vec F S1x40 .f32) (i : Fin 25) : Vec F S400x40 .f32 :=
  k0_pay3 (adjRows adj 1 i) (hw x adj w1 b1r w2) b2r

/-- The kernel's result: `log_softmax(adj₁ · HW + b2)`, whole. -/
def ls (x : Vec F S10000x128 .f32) (adj : Vec F S2x10000x10000 .f32) (w1 : Vec F S128x64 .f32)
    (b1r : Vec F S1x64 .f32) (w2 : Vec F S64x40 .f32) (b2r : Vec F S1x40 .f32) : Vec F S10000x40 .f32 :=
  fun y => lsRows x adj w1 b1r w2 b2r (rowBlk y) (rowLoc y)

end Cert.Kernel.Hand

end
-- ==== Proof.Bits.Cases.lean ====
/-
  The three control cases of the kernel body over the grid of 2 × 25 points.

  The body has three conditionals on the grid coordinates: "first point" (form x · W1 into the first scratch buffer),
  "first phase" (store a block of 400 rows of HW into the second scratch buffer) and "second phase" (store a block of
  400 rows of the result into the output buffer). Point 0 takes the first two, points 1 … 24 the second only,
  points 25 … 49 the third only.
-/
import proofs.«146803_g30416958390823_retrytranche2_1219_23_alg».proof.Proof.Gen.Kernel.Skeleton
import proofs.«146803_g30416958390823_retrytranche2_1219_23_alg».proof.Proof.Gen.Kernel.Frame

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- "First point": the condition of the body's first conditional, from the grid coordinates. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First phase": the condition of the second conditional. -/
abbrev condPh0 (i : grid0.Coords) : Prop := k0_cond2 i = 1#1
/-- "Second phase": the condition of the third conditional. -/
abbrev condPh1 (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condPh0_iff : ∀ t : Fin cfg0.N, condPh0 (grid0.coords t) ↔ t.val < 25 :=
  (by decide +kernel : ∀ t : Fin grid0.N, condPh0 (grid0.coords t) ↔ t.val < 25)
theorem condPh1_iff : ∀ t : Fin cfg0.N, condPh1 (grid0.coords t) ↔ 25 ≤ t.val :=
  (by decide +kernel : ∀ t : Fin grid0.N, condPh1 (grid0.coords t) ↔ 25 ≤ t.val)

/-- The grid coordinates of point `t`: phase `t / 25`, block `t % 25`. -/
theorem coords_val : ∀ t : Fin cfg0.N, ((grid0.coords t) 0).val = t.val / 25 ∧ ((grid0.coords t) 1).val = t.val % 25 :=
  (by decide +kernel : ∀ t : Fin grid0.N, ((grid0.coords t) 0).val = t.val / 25 ∧ ((grid0.coords t) 1).val = t.val % 25)

end Cert.Kernel.Hand

end
-- ==== Proof.Bits.Data.lean ====
/-
  The proof data of the one pipeline, stated relationally, and the invariant the body keeps between points.

  What is carried from point to point outside the windows: the first scratch buffer, which after the first point holds
  x · W1 whole; and the second scratch buffer, of which after `n` points of the first phase the rows below `400 n` hold
  the rows of HW = relu(adj₀ · (x · W1) + b1) · W2 (nothing is known of the rows above: the buffer starts at contents
  nobody states). The output window's staging buffer is likewise only partly known until the last point: a point of the
  second phase overwrites its block of 400 rows with the rows of the result and leaves the other rows as found; a point of
  the first phase does not touch it. The input windows are left as found at every point.
-/
import proofs.«146803_g30416958390823_retrytranche2_1219_23_alg».proof.Proof.Gen.Kernel.Skeleton
import proofs.«146803_g30416958390823_retrytranche2_1219_23_alg».proof.Proof.Bits.Spec
import proofs.«146803_g30416958390823_retrytranche2_1219_23_alg».proof.Proof.Bits.Cases

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The kernel's operands as the region finds them, and the functions of them the body forms -/

/-- x · W1 of the launched arrays. -/
def XW (c : Dev nD) : Vec F S10000x64 .f32 := xw (V m c main_arg0) (V m c main_arg2)

/-- HW = relu(adj₀ · (x · W1) + b1) · W2 of the launched arrays (b1 as its one-row reshape, made before the region). -/
def HW (c : Dev nD) : Vec F S10000x40 .f32 :=
  hw (V m c main_arg0) (V m c main_arg1) (V m c main_arg2) (V m c main_v0) (V m c main_arg4)

/-- The result, log_softmax(adj₁ · HW + b2), of the launched arrays. -/
def LS (c : Dev nD) : Vec F S10000x40 .f32 :=
  ls (V m c main_arg0) (V m c main_arg1) (V m c main_arg2) (V m c main_v0) (V m c main_arg4) (V m c main_v1)

/-! ## The scratch buffers and the invariant -/

/-- The scratch operands: whole scoped buffers of the kernel's own, passed beside the windows. -/
abbrev scM0 : Memref sig .tc .vmem S10000x64 .f32 := Memref.whole cc0_scratch0
abbrev scM1 : Memref sig .tc .vmem S10000x40 .f32 := Memref.whole cc0_scratch1

/-- The class's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Contents of the second scratch buffer whose rows below `400 n` are HW's. -/
def HWupto (c : Dev nD) (n : ℕ) (d : Vec F S10000x40 .f32) : Prop :=
  ∀ y : S10000x40.Idx, (y 0).val < 400 * n → d y = HW m c y

/-- The invariant before position `n`: before the first point the class's (every scratch at anything); afterwards the
    first scratch buffer at x · W1, the second at contents whose rows below `400 n` are HW's, and the generator
    register at some state. -/
def PhiS (c : Dev nD) : (n : ℕ) → sProp 𝕄
  | 0 => Pipeline.ΦA spec0 c
  | n + 1 => iprop(iprop(owns (c : Thread nD τ) scM0 fullShare (XW m c) ∗ (∃ d, ⌜HWupto m c (n + 1) d⌝ ∗ owns (c : Thread nD τ) scM1 fullShare d)) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM0 fullShare (XW m c) ∗ (∃ d, ⌜HWupto m c (n + 1) d⌝ ∗ owns (c : Thread nD τ) scM1 fullShare d)) ∗ (∃ r, prngReg c r)) := rfl

theorem PhiS_pos (c : Dev nD) (n : ℕ) (hz : n ≠ 0) :
    PhiS m c n = iprop(iprop(owns (c : Thread nD τ) scM0 fullShare (XW m c) ∗ (∃ d, ⌜HWupto m c n d⌝ ∗ owns (c : Thread nD τ) scM1 fullShare d)) ∗ (∃ r, prngReg c r)) := by
  cases n with
  | zero => exact absurd rfl hz
  | succ n => rfl

/-! ## The output window's relation -/

/-- What a point does to the output window's staging buffer: a point `t` of the second phase overwrites rows
    `[400 (t - 25), 400 (t - 25) + 400)` with the result's rows and keeps the others; a point of the first phase keeps all. -/
def OutStep (c : Dev nD) (t : Fin cfg0.N) (Y X : Vec F S10000x40 .f32) : Prop :=
  if 25 ≤ t.val then
    (∀ y : S10000x40.Idx, 400 * (t.val - 25) ≤ (y 0).val → (y 0).val < 400 * (t.val - 25) + 400 → X y = LS m c y)
      ∧ (∀ y : S10000x40.Idx, ((y 0).val < 400 * (t.val - 25) ∨ 400 * (t.val - 25) + 400 ≤ (y 0).val) → X y = Y y)
  else X = Y

/-- The proof data of the one pipeline on core `c`: the arrays as the region finds them; every input window's
    buffer left as found; the output window's by `OutStep`; the invariant `PhiS`; nothing owed; full shares. -/
def rd (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => OutStep m c t Y X
  Φ t := PhiS m c t.val
  q _ := fullShare
  owed _ := 0

theorem rd_A (c : Dev nD) (w : Fin cfg0.W) : (rd m c).A w = V m c (Pipeline.arrRef spec0 w) := by
  dsimp only [rd]

theorem rd_after_0 (c : Dev nD) (t : Fin cfg0.N) (Y X) : (rd m c).after 0 t Y X ↔ X = Y := by dsimp only [rd]; exact Iff.rfl
theorem rd_after_1 (c : Dev nD) (t : Fin cfg0.N) (Y X) : (rd m c).after 1 t Y X ↔ X = Y := by dsimp only [rd]; exact Iff.rfl
theorem rd_after_2 (c : Dev nD) (t : Fin cfg0.N) (Y X) : (rd m c).after 2 t Y X ↔ X = Y := by dsimp only [rd]; exact Iff.rfl
theorem rd_after_3 (c : Dev nD) (t : Fin cfg0.N) (Y X) : (rd m c).after 3 t Y X ↔ X = Y := by dsimp only [rd]; exact Iff.rfl
theorem rd_after_4 (c : Dev nD) (t : Fin cfg0.N) (Y X) : (rd m c).after 4 t Y X ↔ X = Y := by dsimp only [rd]; exact Iff.rfl
theorem rd_after_5 (c : Dev nD) (t : Fin cfg0.N) (Y X) : (rd m c).after 5 t Y X ↔ X = Y := by dsimp only [rd]; exact Iff.rfl
theorem rd_after_6 (c : Dev nD) (t : Fin cfg0.N) (Y X) : (rd m c).after 6 t Y X ↔ OutStep m c t Y X := by dsimp only [rd]; exact Iff.rfl

theorem rd_Phi (c : Dev nD) (t : Fin (cfg0.N + 1)) : (rd m c).Φ t = PhiS m c t.val := rfl

end Cert.Kernel.Hand

end
-- ==== Proof.Bits.BodyDefs.lean ====
/-
  The body obligation's two sides at a point, window by window.
-/
import proofs.«146803_g30416958390823_retrytranche2_1219_23_alg».proof.Proof.Gen.Kernel.Skeleton
import proofs.«146803_g30416958390823_retrytranche2_1219_23_alg».proof.Proof.Bits.Data

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it to the body, and its wholeness. -/
abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x40 .f32 := win0_6.stage (cfg0.slots t 6)
abbrev hs6 (t : Fin cfg0.N) : (ms6 t).IsWhole := hstage0_6 ((cfg0.slots t 6).cast nbuf0_6)

/-- What the body is handed at point `t`: the invariant, what the core owes, and every window's current buffer at
    the contents `Y` names. -/
def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6))

/-- What it hands back: the invariant at the next point, what the core owes, and every window's current buffer at
    contents in the window's relation to what was handed over. -/
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (ms0 t) fullShare X)
    ∗ (∃ X, ⌜(rd m c).after 1 t (Y 1) X⌝ ∗ owns (c : Thread nD τ) (ms1 t) fullShare X)
    ∗ (∃ X, ⌜(rd m c).after 2 t (Y 2) X⌝ ∗ owns (c : Thread nD τ) (ms2 t) fullShare X)
    ∗ (∃ X, ⌜(rd m c).after 3 t (Y 3) X⌝ ∗ owns (c : Thread nD τ) (ms3 t) fullShare X)
    ∗ (∃ X, ⌜(rd m c).after 4 t (Y 4) X⌝ ∗ owns (c : Thread nD τ) (ms4 t) fullShare X)
    ∗ (∃ X, ⌜(rd m c).after 5 t (Y 5) X⌝ ∗ owns (c : Thread nD τ) (ms5 t) fullShare X)
    ∗ (∃ X, ⌜(rd m c).after 6 t (Y 6) X⌝ ∗ owns (c : Thread nD τ) (ms6 t) fullShare X))

/-- The same with the input windows at their blocks and the invariant spelt at the point's number: the form the three
    cases are proved in. -/
def casePre (c : Dev nD) (t : Fin cfg0.N) (Y6 : Vec F S10000x40 .f32) : sProp 𝕄 :=
  iprop(PhiS m c t.val ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare Y6)

def casePost (c : Dev nD) (t : Fin cfg0.N) (Y6 : Vec F S10000x40 .f32) : sProp 𝕄 :=
  iprop(PhiS m c (t.val + 1) ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ (∃ X, ⌜OutStep m c t Y6 X⌝ ∗ owns (c : Thread nD τ) (ms6 t) fullShare X))

end Cert.Kernel.Hand

end
-- ==== Proof.Bits.Blocks.lean ====
/-
  What the body finds in each input window's staging buffer, and what those blocks are.

  Every input window's relation leaves its buffer as found, so whatever the body may find there at a point is the
  block a fetch put there: the window's block of its array at that point. The adjacency window's block at point t is
  rows [400 (t % 25), 400 (t % 25) + 400) of layer t / 25 of the stack; the five other windows are whole arrays at block
  index 0 on every axis at every point, so their block is the array itself.
-/
import proofs.«146803_g30416958390823_retrytranche2_1219_23_alg».proof.Proof.Bits.Data
import Idealize.ShloMosaic.Lib.Pipeline.FrameBody

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the body finds in an input window's buffer is the window's block

An input window, uncut, whose relation leaves the buffer as found: what is found is a fetched block, and a fetch of an
uncut window fills the whole buffer with the array's block. -/

/-- Whatever the body may find in input window 0's buffer at a point is the window's block there. -/
theorem finds_0 (c : Dev nD) (t : Fin cfg0.N) (Y) (h : (rd m c).Finds 0 t Y) : Y = iblk m c 0 t := by
  obtain ⟨d, hd⟩ := (rd m c).finds_in_eq_fetched 0 rfl (fun _ _ _ => rfl) (fun t Y X hR => (rd_after_0 m c t Y X).mp hR) t Y h
  rw [hd]; unfold RDat.fetched RDat.blockOf iblk; rw [rd_A]; rfl

/-- Whatever the body may find in input window 1's buffer at a point is the window's block there. -/
theorem finds_1 (c : Dev nD) (t : Fin cfg0.N) (Y) (h : (rd m c).Finds 1 t Y) : Y = iblk m c 1 t := by
  obtain ⟨d, hd⟩ := (rd m c).finds_in_eq_fetched 1 rfl (fun _ _ _ => rfl) (fun t Y X hR => (rd_after_1 m c t Y X).mp hR) t Y h
  rw [hd]; unfold RDat.fetched RDat.blockOf iblk; rw [rd_A]; rfl

/-- Whatever the body may find in input window 2's buffer at a point is the window's block there. -/
theorem finds_2 (c : Dev nD) (t : Fin cfg0.N) (Y) (h : (rd m c).Finds 2 t Y) : Y = iblk m c 2 t := by
  obtain ⟨d, hd⟩ := (rd m c).finds_in_eq_fetched 2 rfl (fun _ _ _ => rfl) (fun t Y X hR => (rd_after_2 m c t Y X).mp hR) t Y h
  rw [hd]; unfold RDat.fetched RDat.blockOf iblk; rw [rd_A]; rfl

/-- Whatever the body may find in input window 3's buffer at a point is the window's block there. -/
theorem finds_3 (c : Dev nD) (t : Fin cfg0.N) (Y) (h : (rd m c).Finds 3 t Y) : Y = iblk m c 3 t := by
  obtain ⟨d, hd⟩ := (rd m c).finds_in_eq_fetched 3 rfl (fun _ _ _ => rfl) (fun t Y X hR => (rd_after_3 m c t Y X).mp hR) t Y h
  rw [hd]; unfold RDat.fetched RDat.blockOf iblk; rw [rd_A]; rfl

/-- Whatever the body may find in input window 4's buffer at a point is the window's block there. -/
theorem finds_4 (c : Dev nD) (t : Fin cfg0.N) (Y) (h : (rd m c).Finds 4 t Y) : Y = iblk m c 4 t := by
  obtain ⟨d, hd⟩ := (rd m c).finds_in_eq_fetched 4 rfl (fun _ _ _ => rfl) (fun t Y X hR => (rd_after_4 m c t Y X).mp hR) t Y h
  rw [hd]; unfold RDat.fetched RDat.blockOf iblk; rw [rd_A]; rfl

/-- Whatever the body may find in input window 5's buffer at a point is the window's block there. -/
theorem finds_5 (c : Dev nD) (t : Fin cfg0.N) (Y) (h : (rd m c).Finds 5 t Y) : Y = iblk m c 5 t := by
  obtain ⟨d, hd⟩ := (rd m c).finds_in_eq_fetched 5 rfl (fun _ _ _ => rfl) (fun t Y X hR => (rd_after_5 m c t Y X).mp hR) t Y h
  rw [hd]; unfold RDat.fetched RDat.blockOf iblk; rw [rd_A]; rfl

/-! ## The block indices over the grid -/

/-- The adjacency window's block index at point t is (t / 25, t % 25, 0). -/
theorem idx0 : ∀ t : Fin cfg0.N, win0_0.index t (0 : Fin 3) = t.val / 25 ∧ win0_0.index t (1 : Fin 3) = t.val % 25 ∧ win0_0.index t (2 : Fin 3) = 0 :=
  (by decide +kernel : ∀ t : Fin grid0.N, win0_0.index t (0 : Fin 3) = t.val / 25 ∧ win0_0.index t (1 : Fin 3) = t.val % 25 ∧ win0_0.index t (2 : Fin 3) = 0)

/-- Window 1's block index is 0 on both axes at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2's block index is 0 on both axes at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3's block index is 0 on both axes at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4's block index is 0 on both axes at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5's block index is 0 on both axes at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks, read off the arrays

A block's coordinate on an axis is the block index times the block's size there plus the coordinate inside the block. -/

/-- The adjacency window's block at point t = 25 p + i is rows [400 i, 400 i + 400) of layer p of the stack. -/
theorem iblk_0 (c : Dev nD) (t : Fin cfg0.N) (p : Fin 2) (i : Fin 25) (hp : t.val / 25 = p.val) (hi : t.val % 25 = i.val) :
    iblk m c 0 t = adjRows (V m c main_arg1) p i := by
  obtain ⟨e0, e1, e2⟩ := idx0 t
  funext y
  show V m c main_arg1 (((cfg0.win 0).blk t).view.emb y) = V m c main_arg1 _
  congr 1
  funext a; apply Fin.ext
  have h0 : (y 0).val < 1 := (y 0).isLt
  match a with
  | ⟨0, _⟩ => show win0_0.index t (0 : Fin 3) * 1 + 1 * (y 0).val = p.val; omega
  | ⟨1, _⟩ => show win0_0.index t (1 : Fin 3) * 400 + 1 * (y 1).val = 400 * i.val + (y 1).val; omega
  | ⟨2, _⟩ => show win0_0.index t (2 : Fin 3) * 10000 + 1 * (y 2).val = (y 2).val; omega

/-- Window 1's block at every point is its whole array. -/
theorem iblk_1 (c : Dev nD) (t : Fin cfg0.N) : iblk m c 1 t = V m c main_arg0 := by
  obtain ⟨e0, e1⟩ := idx1 t
  funext y
  show V m c main_arg0 (((cfg0.win 1).blk t).view.emb y) = V m c main_arg0 y
  congr 1
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- Window 2's block at every point is its whole array. -/
theorem iblk_2 (c : Dev nD) (t : Fin cfg0.N) : iblk m c 2 t = V m c main_arg2 := by
  obtain ⟨e0, e1⟩ := idx2 t
  funext y
  show V m c main_arg2 (((cfg0.win 2).blk t).view.emb y) = V m c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 3's block at every point is its whole array. -/
theorem iblk_3 (c : Dev nD) (t : Fin cfg0.N) : iblk m c 3 t = V m c main_v0 := by
  obtain ⟨e0, e1⟩ := idx3 t
  funext y
  show V m c main_v0 (((cfg0.win 3).blk t).view.emb y) = V m c main_v0 y
  congr 1
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is its whole array. -/
theorem iblk_4 (c : Dev nD) (t : Fin cfg0.N) : iblk m c 4 t = V m c main_arg4 := by
  obtain ⟨e0, e1⟩ := idx4 t
  funext y
  show V m c main_arg4 (((cfg0.win 4).blk t).view.emb y) = V m c main_arg4 y
  congr 1
  funext a; apply Fin.ext
  match a with
  | ⟨0, _⟩ => show win0_4.index t (0 : Fin 2) * 64 + 1 * (y 0).val = (y 0).val; omega
  | ⟨1, _⟩ => show win0_4.index t (1 : Fin 2) * 40 + 1 * (y 1).val = (y 1).val; omega

/-- Window 5's block at every point is its whole array. -/
theorem iblk_5 (c : Dev nD) (t : Fin cfg0.N) : iblk m c 5 t = V m c main_v1 := by
  obtain ⟨e0, e1⟩ := idx5 t
  funext y
  show V m c main_v1 (((cfg0.win 5).blk t).view.emb y) = V m c main_v1 y
  congr 1
  funext a; apply Fin.ext
  match a with
  | ⟨0, _⟩ => show win0_5.index t (0 : Fin 2) * 1 + 1 * (y 0).val = (y 0).val; omega
  | ⟨1, _⟩ => show win0_5.index t (1 : Fin 2) * 40 + 1 * (y 1).val = (y 1).val; omega

end Cert.Kernel.Hand

end
-- ==== Proof.Bits.Zeros.lean ====
import Mathlib.Data.Fin.VecNotation
/-
  The zero offsets of a whole-buffer load or store, however many axes, are the constant function zero.
-/

namespace Cert.Kernel.Hand

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

end Cert.Kernel.Hand
-- ==== Proof.Bits.Pointwise.lean ====
/-
  One store of 400 whole rows, or of the whole buffer, read back element by element.

  A whole staging buffer that holds `s` and takes one store of rows `[o, o + 400)` holds afterwards the stored value on
  those rows (at the row's position inside the block) and `s` on every other row; one store of the whole buffer leaves
  the stored value.
-/
import proofs.«146803_g30416958390823_retrytranche2_1219_23_alg».proof.Proof.Gen.Kernel.Skeleton
import proofs.«146803_g30416958390823_retrytranche2_1219_23_alg».proof.Proof.Bits.Zeros
import Idealize.ShloMosaic.Lib.WritesUnit
import Idealize.ShloMosaic.Lib.Pipeline.Frame

noncomputable section

namespace Cert.Kernel.Hand

open Idealize.ShloMosaic Cert.Kernel Cert.Kernel.Gen

variable {F : FTy → Type} [FloatOps F]

/-- A row of the stored block reads the stored value at the row's position in the block. -/
theorem read_rows_in {sp : Space} (M : Memref sig .tc sp S10000x40 .f32) (hM : M.IsWhole) (s : Vec F S10000x40 .f32)
    (off : Fin 2 → ℕ) (inb : ∀ a, off a + S400x40.size a ≤ S10000x40.size a) (P : FVec F S400x40 .f32) (o : ℕ)
    (hoff : off = ![o, 0]) (y : S10000x40.Idx) (x : S400x40.Idx)
    (h0 : (y 0).val = o + (x 0).val) (h1 : (y 1).val = (x 1).val) :
    M.view.read (Elt F) (M.view.writes (Elt F) (hM.unread s) [⟨Rect.unit (s := S10000x40) off S400x40.size inb, P⟩]) y = P x :=
  View.read_writes_cons_rows_of_mem M.view (hM.unread s) inb P [] y x hoff h0 h1

/-- A row outside the stored block reads what the buffer held. -/
theorem read_rows_out {sp : Space} (M : Memref sig .tc sp S10000x40 .f32) (hM : M.IsWhole) (s : Vec F S10000x40 .f32)
    (off : Fin 2 → ℕ) (inb : ∀ a, off a + S400x40.size a ≤ S10000x40.size a) (P : FVec F S400x40 .f32) (o : ℕ)
    (hoff : off = ![o, 0]) (y : S10000x40.Idx) (h : (y 0).val < o ∨ o + 400 ≤ (y 0).val) :
    M.view.read (Elt F) (M.view.writes (Elt F) (hM.unread s) [⟨Rect.unit (s := S10000x40) off S400x40.size inb, P⟩]) y = s y := by
  rw [View.read_writes_cons_rows_of_not_mem M.view (hM.unread s) inb P [] y hoff rfl h, View.writes_nil]
  exact congrFun (hM.read_unread s) y

/-- One store of the whole buffer leaves the stored value. -/
theorem read_whole {sp : Space} (M : Memref sig .tc sp S10000x64 .f32) (hM : M.IsWhole) (s : Vec F S10000x64 .f32)
    (inb : ∀ a, (![0, 0] : Fin 2 → ℕ) a + S10000x64.size a ≤ S10000x64.size a) (P : FVec F S10000x64 .f32) :
    M.view.read (Elt F) (M.view.writes (Elt F) (hM.unread s) [⟨Rect.unit (s := S10000x64) ![0, 0] S10000x64.size inb, P⟩]) = P := by
  funext y
  exact View.read_writes_cons_unit_of_mem M.view (hM.unread s) inb P [] y y rfl (fun a => by
    match a with
    | ⟨0, _⟩ => exact (Nat.zero_add _).symm
    | ⟨1, _⟩ => exact (Nat.zero_add _).symm)

end Cert.Kernel.Hand

end
-- ==== Proof.Bits.Steps.lean ====
/-
  What one point does to the carried buffers, as facts about contents (no program logic here).

  A point `t < 25` of the first phase stores the rows of HW of its block into the second scratch buffer: if the rows
  below `400 t` were HW's before, the rows below `400 (t + 1)` are after. A point `t ≥ 25` of the second phase finds the
  second scratch buffer at HW whole and stores the rows of the result of its block `t - 25` into the output buffer.
  The blocks the body loads are the corresponding pieces of the launched arrays.
-/
import proofs.«146803_g30416958390823_retrytranche2_1219_23_alg».proof.Proof.Gen.Kernel.Skeleton
import proofs.«146803_g30416958390823_retrytranche2_1219_23_alg».proof.Proof.Bits.Blocks
import proofs.«146803_g30416958390823_retrytranche2_1219_23_alg».proof.Proof.Bits.Pointwise

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The number of grid points, as a numeral. -/
theorem N_eq : cfg0.N = 50 := N_0

/-- The first stored value at the first point is x · W1 of the launched arrays. -/
theorem xw_block (c : Dev nD) (t : Fin cfg0.N) : k0_pay1 (iblk m c 1 t) (iblk m c 2 t) = XW m c := by
  rw [iblk_1, iblk_2]; rfl

/-- Contents whose rows below `400 n` are HW's, `25 ≤ n`, are HW. -/
theorem eq_HW_of_upto (c : Dev nD) (n : ℕ) (hn : 25 ≤ n) (d : Vec F S10000x40 .f32) (h : HWupto m c n d) : d = HW m c := by
  funext y
  have hy : (y 0).val < 10000 := (y 0).isLt
  exact h y (by omega)

theorem upto_of_eq_HW (c : Dev nD) (n : ℕ) : HWupto m c n (HW m c) := fun _ _ => rfl

/-- The stored value of a first-phase point at a row of its block is HW's entry. -/
theorem hw_block (c : Dev nD) (t : Fin cfg0.N) (ht : t.val < 25) (y : S10000x40.Idx) (hy : (y 0).val / 400 = t.val) :
    k0_pay2 (iblk m c 0 t) (XW m c) (iblk m c 3 t) (iblk m c 4 t) (rowLoc y) = HW m c y := by
  have hb : rowBlk y = ⟨t.val, ht⟩ := Fin.ext hy
  rw [iblk_0 m c t 0 ⟨t.val, ht⟩ (by show t.val / 25 = 0; omega) (by show t.val % 25 = t.val; omega), iblk_3, iblk_4]
  unfold HW hw hwRows XW
  rw [hb]

/-- The stored value of a second-phase point at a row of its block is the result's entry. -/
theorem ls_block (c : Dev nD) (t : Fin cfg0.N) (ht : 25 ≤ t.val) (y : S10000x40.Idx) (hy : (y 0).val / 400 = t.val - 25) :
    k0_pay3 (iblk m c 0 t) (HW m c) (iblk m c 5 t) (rowLoc y) = LS m c y := by
  have hN : t.val < 50 := lt_of_lt_of_eq t.isLt (N_eq)
  have hb : rowBlk y = ⟨t.val - 25, by omega⟩ := Fin.ext hy
  rw [iblk_0 m c t 1 ⟨t.val - 25, by omega⟩ (by show t.val / 25 = 1; omega) (by show t.val % 25 = t.val - 25; omega), iblk_5]
  unfold LS ls lsRows HW
  rw [hb]

/-- A first-phase point's store extends the known rows of the second scratch buffer by its block. -/
theorem hw_step (c : Dev nD) (t : Fin cfg0.N) (ht : t.val < 25) {sp : Space} (M : Memref sig .tc sp S10000x40 .f32) (hM : M.IsWhole)
    (s1 : Vec F S10000x40 .f32) (h : HWupto m c t.val s1)
    (inb : ∀ a, (k0_off1 (grid0.coords t)) a + S400x40.size a ≤ S10000x40.size a) :
    HWupto m c (t.val + 1) (M.view.read (Elt F) (M.view.writes (Elt F) (hM.unread s1)
      [⟨Rect.unit (s := S10000x40) (k0_off1 (grid0.coords t)) S400x40.size inb, k0_pay2 (iblk m c 0 t) (XW m c) (iblk m c 3 t) (iblk m c 4 t)⟩])) := by
  intro y hy
  have hoff : k0_off1 (grid0.coords t) = ![400 * t.val, 0] := by
    rw [k0_off1_eq, (coords_val t).2]
    have : t.val % 25 = t.val := Nat.mod_eq_of_lt ht
    rw [this]
  by_cases hlt : (y 0).val < 400 * t.val
  · rw [read_rows_out M hM s1 _ inb _ (400 * t.val) hoff y (Or.inl hlt)]
    exact h y hlt
  · have hq : (y 0).val / 400 = t.val := by omega
    rw [read_rows_in M hM s1 _ inb _ (400 * t.val) hoff y (rowLoc y) (by show (y 0).val = 400 * t.val + (y 0).val % 400; omega) rfl]
    exact hw_block m c t ht y hq

/-- A second-phase point's store is the output window's step. -/
theorem out_step (c : Dev nD) (t : Fin cfg0.N) (ht : 25 ≤ t.val) {sp : Space} (M : Memref sig .tc sp S10000x40 .f32) (hM : M.IsWhole)
    (Y : Vec F S10000x40 .f32)
    (inb : ∀ a, (k0_off2 (grid0.coords t)) a + S400x40.size a ≤ S10000x40.size a) :
    OutStep m c t Y (M.view.read (Elt F) (M.view.writes (Elt F) (hM.unread Y)
      [⟨Rect.unit (s := S10000x40) (k0_off2 (grid0.coords t)) S400x40.size inb, k0_pay3 (iblk m c 0 t) (HW m c) (iblk m c 5 t)⟩])) := by
  have hN : t.val < 50 := lt_of_lt_of_eq t.isLt (N_eq)
  have hoff : k0_off2 (grid0.coords t) = ![400 * (t.val - 25), 0] := by
    rw [k0_off2_eq, (coords_val t).2]
    have : t.val % 25 = t.val - 25 := by omega
    rw [this]
  unfold OutStep
  rw [if_pos ht]
  refine ⟨fun y h1 h2 => ?_, fun y h => ?_⟩
  · have hq : (y 0).val / 400 = t.val - 25 := by omega
    rw [read_rows_in M hM Y _ inb _ (400 * (t.val - 25)) hoff y (rowLoc y) (by show (y 0).val = 400 * (t.val - 25) + (y 0).val % 400; omega) rfl]
    exact ls_block m c t ht y hq
  · exact read_rows_out M hM Y _ inb _ (400 * (t.val - 25)) hoff y h

end Cert.Kernel.Hand

end
-- ==== Proof.Bits.RunA.lean ====
/-
  The body at the first point: it forms x · W1 from the whole of x and of W1 and stores it over the whole first scratch buffer; then, as at every point of the first phase, it reads its block of 400 rows of the first adjacency layer, that product back from the scratch buffer, b1 and W2, and stores the block's rows of relu(adj₀ · (x · W1) + b1) · W2 into rows [0, 400) of the second scratch buffer. The two lists of stores are the witness.
-/
import proofs.«146803_g30416958390823_retrytranche2_1219_23_alg».proof.Proof.Gen.Kernel.Skeleton
import proofs.«146803_g30416958390823_retrytranche2_1219_23_alg».proof.Proof.Bits.Cases
import Idealize.ShloMosaic.Lib.Pipeline.Value
import proofs.«146803_g30416958390823_retrytranche2_1219_23_alg».proof.Proof.Bits.Zeros

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (s0 : Vec F S10000x64 .f32) (s1 : Vec F S10000x40 .f32) :
    { LS : List (View.Piece (Elt F) S10000x64 .f32) × List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (arg9.view.loc (c : Thread nD τ) ↦[arg9.view.set]{fullShare} arg9.view.writes (Elt F) (harg9.unread s0) LS.1) ∗ (arg10.view.loc (c : Thread nD τ) ↦[arg10.view.set]{fullShare} arg10.view.writes (Elt F) (harg10.unread s1) LS.2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexact HS0
    iexact HS1

/-- The two stores of the run above: the first scratch buffer, whole, takes x · W1; rows `[0, 400)` of the second
    scratch buffer take the block's rows of relu(adj₀ · (x · W1) + b1) · W2, the product read back from the first
    scratch buffer (a load of a whole buffer reads its contents; a load after one covering store reads what was stored). -/
theorem runA_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (s0 : Vec F S10000x64 .f32) (s1 : Vec F S10000x40 .f32) :
    (runA c i arg2 harg2 arg3 harg3 arg4 harg4 arg5 harg5 arg6 harg6 arg7 harg7 arg8 harg8 arg9 harg9 arg10 harg10 hc0 hc1 hc2 x0 x1 x2 x3 x4 x5 y6 s0 s1).1
      = ([⟨Rect.unit (s := S10000x64) ![0, 0] S10000x64.size inb_S10000x64_S10000x64_0_0, k0_pay1 x1 x2⟩],
         [⟨Rect.unit (s := S10000x40) (k0_off1 i) S400x40.size (k0_off1_inb i hc1), k0_pay2 x0 (k0_pay1 x1 x2) x3 x4⟩]) := by
  unfold runA
  dsimp only
  sl_unfold_words
  simp only [View.readAt_eq_ld, Memref.IsWhole.read_unread, View.ld_unit_zero (S := S1x400x10000) hz3,
    View.ld_unit_zero (S := S10000x128) hz2, View.ld_unit_zero (S := S128x64) hz2,
    View.ld_unit_zero (S := S10000x64) hz2, View.ld_unit_zero (S := S1x64) hz2, View.ld_unit_zero (S := S64x40) hz2,
    View.readCov_unit_zero (S := S10000x64) _ hz2]

end Cert.Kernel.Hand

end
-- ==== Proof.Bits.BodyA.lean ====
/-
  The body obligation at the first point.
-/
import proofs.«146803_g30416958390823_retrytranche2_1219_23_alg».proof.Proof.Gen.Kernel.Skeleton
import proofs.«146803_g30416958390823_retrytranche2_1219_23_alg».proof.Proof.Bits.BodyDefs
import proofs.«146803_g30416958390823_retrytranche2_1219_23_alg».proof.Proof.Bits.Steps
import proofs.«146803_g30416958390823_retrytranche2_1219_23_alg».proof.Proof.Bits.RunA

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the first point both scratch buffers hold anything; the body's first store leaves x · W1 in the first, its second
    HW's rows below 400 in the second; every window's buffer is left as found. -/
theorem caseA (c : Dev nD) (t : Fin cfg0.N) (h0 : t.val = 0) (Y6 : Vec F S10000x40 .f32) :
    casePre m c t Y6 ⊢ wp frame (wpE (defs₀ (F := F)) Variants.none c none) Set.univ (bodyAt0 t) (fun _ => casePost m c t Y6) := by
  unfold casePre casePost bodyAt0
  have h1 : t.val < 25 := by omega
  rw [show PhiS m c t.val = PhiS m c 0 from by rw [h0], PhiS_zero, PhiA_eq, PhiS_succ]
  have hc0 : condFirst (grid0.coords t) := (condFirst_iff t).mpr h0
  have hc1 : condPh0 (grid0.coords t) := (condPh0_iff t).mpr h1
  have hc2 : ¬condPh1 (grid0.coords t) := fun h => absurd ((condPh1_iff t).mp h) (by omega)
  iintro ⟨⟨⟨⟨%s0, HS0⟩, ⟨%s1, HS1⟩⟩, Hg⟩, Ho, H0, H1, H2, H3, H4, H5, H6⟩
  iapply ((runA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 s0 s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr; swap; · iexact HS0
        ipureintro
        rw [runA_pieces]
        exact (read_whole scM0 (Memref.isWhole_whole _) s0 _ _).trans (xw_block m c t)
      iexists _
      isplitr
      swap
      · unfold owns; iexists _; isplitr; swap; · iexact HS1
        ipureintro; rfl
      ipureintro
      rw [runA_pieces, xw_block m c t]
      exact hw_step m c t h1 scM1 (Memref.isWhole_whole _) s1 (fun y hy => absurd hy (by rw [h0]; omega)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  unfold OutStep
  rw [if_neg (by omega)]

end Cert.Kernel.Hand

end
-- ==== Proof.Bits.RunB.lean ====
/-
  The body at a point of the first phase after the first (points 1 … 24): it reads its block of 400 rows of the first adjacency layer, the whole of x · W1 from the first scratch buffer, b1 and W2, and stores the block's rows of relu(adj₀ · (x · W1) + b1) · W2 into rows [400 i, 400 i + 400) of the second scratch buffer; every other buffer is left as found. The list of stores into the second scratch buffer is the witness.
-/
import proofs.«146803_g30416958390823_retrytranche2_1219_23_alg».proof.Proof.Gen.Kernel.Skeleton
import proofs.«146803_g30416958390823_retrytranche2_1219_23_alg».proof.Proof.Bits.Cases
import Idealize.ShloMosaic.Lib.Pipeline.Value
import proofs.«146803_g30416958390823_retrytranche2_1219_23_alg».proof.Proof.Bits.Zeros

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (s1 : Vec F S10000x40 .f32) :
    { LS1 : List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ arg10.view.loc (c : Thread nD τ) ↦[arg10.view.set]{fullShare} arg10.view.writes (Elt F) (harg10.unread s1) LS1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

/-- The one store of the run above: rows `[400 i, 400 i + 400)` of the second scratch buffer take the block's rows of
    relu(adj₀ · (x · W1) + b1) · W2, formed from the loaded block, the first scratch buffer's contents, b1 and W2
    (a load of a whole buffer reads its contents). -/
theorem runB_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (s1 : Vec F S10000x40 .f32) :
    (runB c i arg2 harg2 arg3 harg3 arg4 harg4 arg5 harg5 arg6 harg6 arg7 harg7 arg8 harg8 arg9 harg9 arg10 harg10 hc0 hc1 hc2 x0 x1 x2 x3 x4 x5 y6 xs0 s1).1
      = [⟨Rect.unit (s := S10000x40) (k0_off1 i) S400x40.size (k0_off1_inb i hc1), k0_pay2 x0 xs0 x3 x4⟩] := by
  unfold runB
  dsimp only
  simp only [View.readAt_eq_ld, Memref.IsWhole.read_unread, View.ld_unit_zero (S := S1x400x10000) hz3,
    View.ld_unit_zero (S := S10000x64) hz2, View.ld_unit_zero (S := S1x64) hz2, View.ld_unit_zero (S := S64x40) hz2]

end Cert.Kernel.Hand

end
-- ==== Proof.Bits.BodyB.lean ====
/-
  The body obligation at a point of the first phase after the first (points 1 … 24).
-/
import proofs.«146803_g30416958390823_retrytranche2_1219_23_alg».proof.Proof.Gen.Kernel.Skeleton
import proofs.«146803_g30416958390823_retrytranche2_1219_23_alg».proof.Proof.Bits.BodyDefs
import proofs.«146803_g30416958390823_retrytranche2_1219_23_alg».proof.Proof.Bits.Steps
import proofs.«146803_g30416958390823_retrytranche2_1219_23_alg».proof.Proof.Bits.RunB

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a point `0 < t < 25` the first scratch buffer holds x · W1 and the second HW's rows below `400 t`; the body's one
    store extends them to the rows below `400 (t + 1)`; every window's buffer is left as found. -/
theorem caseB (c : Dev nD) (t : Fin cfg0.N) (h0 : t.val ≠ 0) (h1 : t.val < 25) (Y6 : Vec F S10000x40 .f32) :
    casePre m c t Y6 ⊢ wp frame (wpE (defs₀ (F := F)) Variants.none c none) Set.univ (bodyAt0 t) (fun _ => casePost m c t Y6) := by
  unfold casePre casePost bodyAt0
  rw [PhiS_pos m c t.val h0, PhiS_succ]
  have hc0 : ¬condFirst (grid0.coords t) := fun h => h0 ((condFirst_iff t).mp h)
  have hc1 : condPh0 (grid0.coords t) := (condPh0_iff t).mpr h1
  have hc2 : ¬condPh1 (grid0.coords t) := fun h => absurd ((condPh1_iff t).mp h) (by omega)
  iintro ⟨⟨⟨HS0, ⟨%s1, %hup, HS1⟩⟩, Hg⟩, Ho, H0, H1, H2, H3, H4, H5, H6⟩
  iapply ((runB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 (XW m c) s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _
      isplitr
      swap
      · unfold owns; iexists _; isplitr; swap; · iexact HS1
        ipureintro; rfl
      ipureintro
      rw [runB_pieces]
      exact hw_step m c t h1 scM1 (Memref.isWhole_whole _) s1 hup _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  unfold OutStep
  rw [if_neg (by omega)]

end Cert.Kernel.Hand

end
-- ==== Proof.Bits.RunC.lean ====
/-
  The body at a point of the second phase (points 25 … 49): it reads its block of 400 rows of the second adjacency layer, the whole second scratch buffer and b2, and stores the block's rows of log_softmax(adj₁ · HW + b2) into rows [400 i, 400 i + 400) of the output buffer; every other buffer is left as found. The list of stores into the output buffer is the witness.
-/
import proofs.«146803_g30416958390823_retrytranche2_1219_23_alg».proof.Proof.Gen.Kernel.Skeleton
import proofs.«146803_g30416958390823_retrytranche2_1219_23_alg».proof.Proof.Bits.Cases
import Idealize.ShloMosaic.Lib.Pipeline.Value
import proofs.«146803_g30416958390823_retrytranche2_1219_23_alg».proof.Proof.Bits.Zeros

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : ¬condPh0 i) (hc2 : condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (xs1 : Vec F S10000x40 .f32) :
    { LS6 : List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) LS6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [HS0]
    · iexists _; isplitr; · ipureintro; exact harg9.read_unread _
      iexact HS0
    iexists _; isplitr; · ipureintro; exact harg10.read_unread _
    iexact HS1

/-- The one store of the run above: rows `[400 i, 400 i + 400)` of the output buffer take the block's rows of
    log_softmax(adj₁ · HW + b2), formed from the loaded block, the second scratch buffer's contents and b2
    (a load of a whole buffer reads its contents). -/
theorem runC_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : ¬condPh0 i) (hc2 : condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (xs1 : Vec F S10000x40 .f32) :
    (runC c i arg2 harg2 arg3 harg3 arg4 harg4 arg5 harg5 arg6 harg6 arg7 harg7 arg8 harg8 arg9 harg9 arg10 harg10 hc0 hc1 hc2 x0 x1 x2 x3 x4 x5 y6 xs0 xs1).1
      = [⟨Rect.unit (s := S10000x40) (k0_off2 i) S400x40.size (k0_off2_inb i hc2), k0_pay3 x0 xs1 x5⟩] := by
  unfold runC
  dsimp only
  simp only [View.readAt_eq_ld, Memref.IsWhole.read_unread, View.ld_unit_zero (S := S1x400x10000) hz3,
    View.ld_unit_zero (S := S10000x40) hz2, View.ld_unit_zero (S := S1x40) hz2]

end Cert.Kernel.Hand

end
-- ==== Proof.Bits.BodyC.lean ====
/-
  The body obligation at a point of the second phase (points 25 … 49).
-/
import proofs.«146803_g30416958390823_retrytranche2_1219_23_alg».proof.Proof.Gen.Kernel.Skeleton
import proofs.«146803_g30416958390823_retrytranche2_1219_23_alg».proof.Proof.Bits.BodyDefs
import proofs.«146803_g30416958390823_retrytranche2_1219_23_alg».proof.Proof.Bits.Steps
import proofs.«146803_g30416958390823_retrytranche2_1219_23_alg».proof.Proof.Bits.RunC

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a point `t ≥ 25` the second scratch buffer holds HW whole; the body's one store puts the result's rows of block
    `t - 25` into the output window's buffer and keeps its other rows; every other buffer is left as found. -/
theorem caseC (c : Dev nD) (t : Fin cfg0.N) (h2 : 25 ≤ t.val) (Y6 : Vec F S10000x40 .f32) :
    casePre m c t Y6 ⊢ wp frame (wpE (defs₀ (F := F)) Variants.none c none) Set.univ (bodyAt0 t) (fun _ => casePost m c t Y6) := by
  unfold casePre casePost bodyAt0
  rw [PhiS_pos m c t.val (by omega), PhiS_succ]
  have hc0 : ¬condFirst (grid0.coords t) := fun h => absurd ((condFirst_iff t).mp h) (by omega)
  have hc1 : ¬condPh0 (grid0.coords t) := fun h => absurd ((condPh0_iff t).mp h) (by omega)
  have hc2 : condPh1 (grid0.coords t) := (condPh1_iff t).mpr h2
  iintro ⟨⟨⟨HS0, ⟨%s1, %hup, HS1⟩⟩, Hg⟩, Ho, H0, H1, H2, H3, H4, H5, H6⟩
  obtain rfl := eq_HW_of_upto m c t.val h2 s1 hup
  iapply ((runC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 (XW m c) (HW m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _
      isplitr
      swap
      · iexact HS1
      ipureintro
      exact upto_of_eq_HW m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap
  · unfold owns; iexists _; isplitr; swap; · iexact H6
    ipureintro; rfl
  ipureintro
  rw [runC_pieces]
  exact out_step m c t h2 (ms6 t) (hs6 t) Y6 _

end Cert.Kernel.Hand

end
-- ==== Proof.Bits.Body.lean ====
/-
  The body obligation of the relational proof data, at every point: the three cases put together.
-/
import proofs.«146803_g30416958390823_retrytranche2_1219_23_alg».proof.Proof.Gen.Kernel.Skeleton
import proofs.«146803_g30416958390823_retrytranche2_1219_23_alg».proof.Proof.Bits.BodyA
import proofs.«146803_g30416958390823_retrytranche2_1219_23_alg».proof.Proof.Bits.BodyB
import proofs.«146803_g30416958390823_retrytranche2_1219_23_alg».proof.Proof.Bits.BodyC

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The body in the form the cases are proved in: whichever case the point is in. -/
theorem sound_case (c : Dev nD) (t : Fin cfg0.N) (Y6 : Vec F S10000x40 .f32) :
    casePre m c t Y6 ⊢ wp frame (wpE (defs₀ (F := F)) Variants.none c none) Set.univ (bodyAt0 t) (fun _ => casePost m c t Y6) := by
  by_cases h0 : t.val = 0
  · exact caseA m c t h0 Y6
  · by_cases h1 : t.val < 25
    · exact caseB m c t h0 h1 Y6
    · exact caseC m c t (by omega) Y6

/-- What the body is handed is the cases' precondition: an input window's buffer holds its block wherever the body is
    handed it. -/
theorem pre_case (c : Dev nD) (t : Fin cfg0.N) (Y : (w : Fin cfg0.W) → (cfg0.win w).block.Idx → Elt F (cfg0.win w).elt)
    (hY : ∀ w, (rd m c).Finds w t (Y w)) : bodyPre m c t Y ⊢ casePre m c t (Y 6) := by
  unfold bodyPre casePre
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5), rd_Phi, Fin.coe_castSucc]

/-- The cases' postcondition is what the body must hand back. -/
theorem case_post (c : Dev nD) (t : Fin cfg0.N) (Y : (w : Fin cfg0.W) → (cfg0.win w).block.Idx → Elt F (cfg0.win w).elt)
    (hY : ∀ w, (rd m c).Finds w t (Y w)) : casePost m c t (Y 6) ⊢ bodyPost m c t Y := by
  unfold bodyPost casePost
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5), rd_Phi, Fin.val_succ]
  rw [show (rd m c).owesAt () t.succ = (rd m c).owesAt () t.castSucc from rfl]
  iintro ⟨HP, Ho, H0, H1, H2, H3, H4, H5, ⟨%X, %hX, H6⟩⟩
  isplitl [HP]; · iexact HP
  isplitl [Ho]; · iexact Ho
  isplitl [H0]
  · iexists _; isplitr; swap; · iexact H0
    ipureintro; exact (rd_after_0 m c t _ _).mpr rfl
  isplitl [H1]
  · iexists _; isplitr; swap; · iexact H1
    ipureintro; exact (rd_after_1 m c t _ _).mpr rfl
  isplitl [H2]
  · iexists _; isplitr; swap; · iexact H2
    ipureintro; exact (rd_after_2 m c t _ _).mpr rfl
  isplitl [H3]
  · iexists _; isplitr; swap; · iexact H3
    ipureintro; exact (rd_after_3 m c t _ _).mpr rfl
  isplitl [H4]
  · iexists _; isplitr; swap; · iexact H4
    ipureintro; exact (rd_after_4 m c t _ _).mpr rfl
  isplitl [H5]
  · iexists _; isplitr; swap; · iexact H5
    ipureintro; exact (rd_after_5 m c t _ _).mpr rfl
  iexists X; isplitr; swap; · iexact H6
  ipureintro; exact (rd_after_6 m c t _ _).mpr hX

/-- The body at any point, on whatever the windows' buffers may hold there. -/
theorem sound_body (c : Dev nD) (t : Fin cfg0.N) (Y : (w : Fin cfg0.W) → (cfg0.win w).block.Idx → Elt F (cfg0.win w).elt)
    (hY : ∀ w, (rd m c).Finds w t (Y w)) :
    bodyPre m c t Y ⊢ wp frame (wpE (defs₀ (F := F)) Variants.none c none) Set.univ (bodyAt0 t) (fun _ => bodyPost m c t Y) :=
  (pre_case m c t Y hY).trans ((sound_case m c t (Y 6)).trans
    (wp_mono frame (wpE (defs₀ (F := F)) Variants.none c none) Set.univ fun _ => case_post m c t Y hY))

/-- The library's body obligation for the relational proof data, at every point. -/
theorem body_obligation (c : Dev nD) : (rd (F := F) m c).BodyObligation (defs₀ (F := F)) Variants.none () Set.univ := fun t Y hY => by
  rw [bigSep_W0, bigSep_W0]
  exact sound_body m c t Y hY

end Cert.Kernel.Hand

end
-- ==== Proof.Bits.Final.lean ====
/-
  After the run the output array holds the result.

  The output window's staging buffer is written row block by row block over the second phase: after point t ≥ 25 its
  rows below 400 (t - 24) are the result's. After the last point every row is. The output array is written back once,
  after the last point, through a block that is the whole array, so what it then holds is the staging buffer's contents.
-/
import proofs.«146803_g30416958390823_retrytranche2_1219_23_alg».proof.Proof.Bits.Data
import Idealize.ShloMosaic.Lib.Pipeline.Cells

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The output window is never fetched, and written back only after the last point -/

theorem fetch6 (t : Fin cfg0.N) : (cfg0.win 6).fetch t = false := by
  have h : (cfg0.win 6).isOut = true := rfl
  unfold Pipeline.Window.fetch
  rw [h]; rfl

theorem flush6_false (t : Fin cfg0.N) (ht : t.val ≠ 49) : ¬ (cfg0.win 6).flush t = true := by
  intro hfl
  have hN : cfg0.N = 50 := N_0
  have h1 := (flush0_6 t).mp hfl
  have h2 : t.val < cfg0.N := t.isLt
  omega

/-! ## The staging buffer's invariant over the second phase -/

theorem leaves6_inv (c : Dev nD) : ∀ (n : ℕ) (t : Fin cfg0.N), t.val = n → 25 ≤ n →
    ∀ X : Vec F S10000x40 .f32, (rd m c).Leaves 6 t X →
      ∀ y : S10000x40.Idx, (y 0).val < 400 * (n - 24) → X y = LS m c y := by
  intro n
  induction n with
  | zero => intro t _ h; omega
  | succ k ih =>
    intro t ht h25 X hX y hy
    obtain ⟨Y, hY, hA⟩ := hX
    rw [rd_after_6] at hA
    unfold OutStep at hA
    rw [if_pos (by omega)] at hA
    obtain ⟨h1, h2⟩ := hA
    by_cases hin : 400 * (t.val - 25) ≤ (y 0).val
    · exact h1 y hin (by omega)
    · have hlt : (y 0).val < 400 * (t.val - 25) := by omega
      rw [h2 y (Or.inl hlt)]
      have ht25 : 25 < t.val := by omega
      rw [(rd m c).finds_of_pos (fetch6 t) (by omega)] at hY
      rcases hY with hfl | hL
      · exact absurd hfl (flush6_false _ (by show t.val - 1 ≠ 49; have := t.isLt; have hN : cfg0.N = 50 := N_0; omega))
      · exact ih ⟨t.val - 1, Nat.lt_of_le_of_lt (Nat.sub_le _ _) t.isLt⟩ (by show t.val - 1 = k; omega) (by omega) Y hL y (by omega)

/-- After the last point the staging buffer holds the result. -/
theorem leaves6_last (c : Dev nD) (t : Fin cfg0.N) (ht : t.val = 49) (X : Vec F S10000x40 .f32)
    (hX : (rd m c).Leaves 6 t X) : X = LS m c := by
  funext y
  have hy : (y 0).val < 10000 := (y 0).isLt
  exact leaves6_inv m c 49 t ht (by omega) X hX y (by omega)

/-! ## The output array: entry contents until the one write-back -/

theorem lt49 : 49 < cfg0.N := by have h : cfg0.N = 50 := N_0; omega

/-- The last point. -/
abbrev t49 : Fin cfg0.N := ⟨49, lt49⟩

theorem arrAt6_low (c : Dev nD) : ∀ n, n ≤ 49 → (rd m c).ArrAt 6 n = fun G => G = (rd m c).A 6
  | 0, _ => rfl
  | n + 1, h => by
    have hN : cfg0.N = 50 := N_0
    have e := (rd m c).ArrAt_succ 6 ⟨n, by omega⟩
    dsimp only at e
    rw [e, if_neg (flush6_false _ (by show n ≠ 49; omega)), arrAt6_low c n (by omega)]

theorem arrAt6_last (c : Dev nD) (Fb : Buf (Elt F) ((cfg0.win 6).arr.view.loc (c.tc : Thread nD τ)))
    (h : (rd m c).ArrAt 6 cfg0.N Fb) :
    ∃ (G₀ : Buf (Elt F) ((cfg0.win 6).arr.view.loc (c.tc : Thread nD τ))) (X : Vec F S10000x40 .f32),
      (rd m c).Leaves 6 t49 X ∧
      Fb = ((cfg0.win 6).blk t49).view.write (Elt F) G₀ ((cfg0.win 6).cut (cfg0.grid.coords t49) X) Finset.univ := by
  have hN : cfg0.N = 50 := N_0
  rw [hN] at h
  have e : (rd m c).ArrAt 6 50 = _ := (rd m c).ArrAt_succ 6 t49
  rw [e, if_pos ((flush0_6 _).mpr rfl)] at h
  obtain ⟨G₀, X, _, hX, hF⟩ := h
  exact ⟨G₀, X, hX, hF⟩

/-! ## The output window's block is the whole array -/

theorem emb6_val (y : ((cfg0.win 6).xblock (cfg0.grid.coords t49)).Idx) (a : Fin (cfg0.win 6).shape.rank) :
    ((((cfg0.win 6).blk t49).view.emb y) a : Nat) = (y a : Nat) := by
  have h0 : (cfg0.win 6).index t49 a = 0 := by
    show (![(0#32 : BitVec 32).toNat, (0#32 : BitVec 32).toNat] : Fin 2 → Nat) a = 0
    fin_cases a <;> rfl
  show ((((cfg0.win 6).rect t49).emb y) a : Nat) = (y a : Nat)
  rw [Rect.emb_apply]
  show (cfg0.win 6).index t49 a * (cfg0.win 6).size a + 1 * (y a : Nat) = (y a : Nat)
  rw [h0]; omega

theorem write6 (c : Dev nD) (G₀ : Buf (Elt F) ((cfg0.win 6).arr.view.loc (c.tc : Thread nD τ))) (X : Vec F S10000x40 .f32)
    (y : S10000x40.Idx) :
    ((cfg0.win 6).blk t49).view.write (Elt F) G₀ ((cfg0.win 6).cut (cfg0.grid.coords t49) X) Finset.univ y = X y := by
  have he : ((cfg0.win 6).blk t49).view.emb y = y := funext fun a => Fin.ext (emb6_val y a)
  have hw := View.write_emb_of_mem (v := ((cfg0.win 6).blk t49).view) G₀ ((cfg0.win 6).cut (cfg0.grid.coords t49) X) (Finset.mem_univ y)
  rw [he] at hw
  rw [hw]
  rfl

/-! ## After the run the output array holds the result -/

theorem arr_final (c : Dev nD) (Fb : Buf (Elt F) ((cfg0.win 6).arr.view.loc (c.tc : Thread nD τ)))
    (h : (rd m c).ArrAt 6 cfg0.N Fb) : Fb = LS m c := by
  obtain ⟨G₀, X, hX, hF⟩ := arrAt6_last m c Fb h
  have hXe : X = LS m c := leaves6_last m c t49 rfl X hX
  rw [hF, hXe]
  funext y
  exact write6 c G₀ (LS m c) y

end Cert.Kernel.Hand

end
-- ==== Proof.Bits.Launch.lean ====
/-
  The run of @main over the relational proof data, and what it leaves: the argument arrays unchanged and the result
  array at the kernel's function `LS` of the launched arrays.
-/
import proofs.«146803_g30416958390823_retrytranche2_1219_23_alg».proof.Proof.Gen.Kernel.Skeleton
import proofs.«146803_g30416958390823_retrytranche2_1219_23_alg».proof.Proof.Bits.Body
import proofs.«146803_g30416958390823_retrytranche2_1219_23_alg».proof.Proof.Bits.Final

noncomputable section

set_option maxRecDepth 16384

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region (every scratch at anything) is the invariant before the first point. -/
theorem hin (c : Dev nD) : Pipeline.ΦA spec0 c ⊢ (rd m c).Φ 0 := by
  rw [rd_Phi]; exact .rfl

/-- After the last point the invariant gives that back: what the scratch buffers hold is forgotten. -/
theorem hout (c : Dev nD) : (rd m c).Φ (Fin.last cfg0.N) ⊢ Pipeline.ΦA spec0 c := by
  rw [rd_Phi, Fin.val_last, PhiS_pos m c _ (by have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, and every final state has every array of the pipeline at some
    contents the relational data allow after every write-back, every other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- The run, read at the result and the arguments: the result array ends at `LS` of the launched arrays — the one
    write-back, after the last point, writes a staging buffer whose every block of rows the second phase has stored —,
    an input array of the pipeline as launched (it is never written), the two arrays no window stages as the region found
    them, which is as launched. -/
theorem run_value : θ_run defs (onTc (τ := τ) (main (F := F))) ⟨m, fun _ => 0, ρ⟩ (fun r => ∀ c : Dev nD,
      r.2.mem ((c.tc : Thread nD τ).loc main_v2) = LS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨arr_final m c _ ((h c).1 6),
      (Pipeline.RDat.FramePost.arr_in h c 1 rfl).trans ((rd_A m c 1).trans (V_main_arg0 m c)),
      (Pipeline.RDat.FramePost.arr_in h c 0 rfl).trans ((rd_A m c 0).trans (V_main_arg1 m c)),
      (Pipeline.RDat.FramePost.arr_in h c 2 rfl).trans ((rd_A m c 2).trans (V_main_arg2 m c)),
      ((h c).2 main_arg3 (Pipeline.mem_restRefs_of main_arg3 (by decide) (by decide))).trans (V_main_arg3 m c),
      (Pipeline.RDat.FramePost.arr_in h c 4 rfl).trans ((rd_A m c 4).trans (V_main_arg4 m c)),
      ((h c).2 main_arg5 (Pipeline.mem_restRefs_of main_arg5 (by decide) (by decide))).trans (V_main_arg5 m c)⟩) (run_main m ρ)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.Kernel.Hand

end
-- ==== Proof.Spec.lean ====
/-
  The kernel's result as ONE function of its argument arrays, at any float instance.

  The kernel walks a grid of 2 × 25 points. In the first phase (25 points) it forms, block of 400 rows by block,
  the rows of  HW = relu(adj₀ · (x · W1) + b1) · W2  into a scratch buffer (the product x · W1 is formed once, at the
  first point, into another scratch buffer). In the second phase (25 points) it forms, block of 400 rows by block,
  the rows of  log_softmax(adj₁ · HW + b2)  into its output buffer, which is written back once, after the last point.
  Each block is one of the body's three stored values (`k0_pay1`, `k0_pay2`, `k0_pay3`) applied to the
  corresponding 400 rows of the adjacency layer; the functions below paste the blocks together.
-/
import proofs.«146803_g30416958390823_retrytranche2_1219_23_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- Rows `[400 i, 400 i + 400)` of layer `p` of the adjacency stack, as a `1 × 400 × 10000` block. -/
def adjRows (adj : Vec F S2x10000x10000 .f32) (p : Fin 2) (i : Fin 25) : Vec F S1x400x10000 .f32 :=
  fun y => adj (ix3 p ⟨400 * i.val + (y 1).val, by
    have h1 : (y 1).val < 400 := (y 1).isLt
    have h2 := i.isLt
    omega⟩ ⟨(y 2).val, (y 2).isLt⟩)

/-- The block of 400 rows that holds row `y 0` of a `10000 × 40` array. -/
def rowBlk (y : S10000x40.Idx) : Fin 25 := ⟨(y 0).val / 400, by
  have h : (y 0).val < 10000 := (y 0).isLt
  omega⟩

/-- The position of index `y` of a `10000 × 40` array inside its block of 400 rows. -/
def rowLoc (y : S10000x40.Idx) : S400x40.Idx :=
  ix2 (⟨(y 0).val % 400, Nat.mod_lt _ (by decide)⟩ : Fin 400) (⟨(y 1).val, (y 1).isLt⟩ : Fin 40)

/-- `x · W1`: what the first point leaves in the first scratch buffer. -/
def xw (x : Vec F S10000x128 .f32) (w1 : Vec F S128x64 .f32) : Vec F S10000x64 .f32 := k0_pay1 x w1

/-- Rows `[400 i, 400 i + 400)` of `relu(adj₀ · (x · W1) + b1) · W2`: what point `i` of the first phase stores. -/
def hwRows (x : Vec F S10000x128 .f32) (adj : Vec F S2x10000x10000 .f32) (w1 : Vec F S128x64 .f32)
    (b1r : Vec F S1x64 .f32) (w2 : Vec F S64x40 .f32) (i : Fin 25) : Vec F S400x40 .f32 :=
  k0_pay2 (adjRows adj 0 i) (xw x w1) b1r w2

/-- `relu(adj₀ · (x · W1) + b1) · W2`, whole: what the second scratch buffer holds after the first phase. -/
def hw (x : Vec F S10000x128 .f32) (adj : Vec F S2x10000x10000 .f32) (w1 : Vec F S128x64 .f32)
    (b1r : Vec F S1x64 .f32) (w2 : Vec F S64x40 .f32) : Vec F S10000x40 .f32 :=
  fun y => hwRows x adj w1 b1r w2 (rowBlk y) (rowLoc y)

/-- Rows `[400 i, 400 i + 400)` of `log_softmax(adj₁ · HW + b2)`: what point `i` of the second phase stores. -/
def lsRows (x : Vec F S10000x128 .f32) (adj : Vec F S2x10000x10000 .f32) (w1 : Vec F S128x64 .f32)
    (b1r : Vec F S1x64 .f32) (w2 : Vec F S64x40 .f32) (b2r : Vec F S1x40 .f32) (i : Fin 25) : Vec F S400x40 .f32 :=
  k0_pay3 (adjRows adj 1 i) (hw x adj w1 b1r w2) b2r

/-- The kernel's result: `log_softmax(adj₁ · HW + b2)`, whole. -/
def ls (x : Vec F S10000x128 .f32) (adj : Vec F S2x10000x10000 .f32) (w1 : Vec F S128x64 .f32)
    (b1r : Vec F S1x64 .f32) (w2 : Vec F S64x40 .f32) (b2r : Vec F S1x40 .f32) : Vec F S10000x40 .f32 :=
  fun y => lsRows x adj w1 b1r w2 b2r (rowBlk y) (rowLoc y)

end Cert.KernelIdeal.Hand

end
-- ==== Proof.Cases.lean ====
/-
  The three control cases of the kernel body over the grid of 2 × 25 points.

  The body has three conditionals on the grid coordinates: "first point" (form x · W1 into the first scratch buffer),
  "first phase" (store a block of 400 rows of HW into the second scratch buffer) and "second phase" (store a block of
  400 rows of the result into the output buffer). Point 0 takes the first two, points 1 … 24 the second only,
  points 25 … 49 the third only.
-/
import proofs.«146803_g30416958390823_retrytranche2_1219_23_alg».proof.Proof.Gen.KernelIdeal.Skeleton
import proofs.«146803_g30416958390823_retrytranche2_1219_23_alg».proof.Proof.Gen.KernelIdeal.Frame

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- "First point": the condition of the body's first conditional, from the grid coordinates. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First phase": the condition of the second conditional. -/
abbrev condPh0 (i : grid0.Coords) : Prop := k0_cond2 i = 1#1
/-- "Second phase": the condition of the third conditional. -/
abbrev condPh1 (i : grid0.Coords) : Prop := k0_cond3 i = 1#1

theorem condFirst_iff : ∀ t : Fin cfg0.N, condFirst (grid0.coords t) ↔ t.val = 0 :=
  (by decide +kernel : ∀ t : Fin grid0.N, condFirst (grid0.coords t) ↔ t.val = 0)
theorem condPh0_iff : ∀ t : Fin cfg0.N, condPh0 (grid0.coords t) ↔ t.val < 25 :=
  (by decide +kernel : ∀ t : Fin grid0.N, condPh0 (grid0.coords t) ↔ t.val < 25)
theorem condPh1_iff : ∀ t : Fin cfg0.N, condPh1 (grid0.coords t) ↔ 25 ≤ t.val :=
  (by decide +kernel : ∀ t : Fin grid0.N, condPh1 (grid0.coords t) ↔ 25 ≤ t.val)

/-- The grid coordinates of point `t`: phase `t / 25`, block `t % 25`. -/
theorem coords_val : ∀ t : Fin cfg0.N, ((grid0.coords t) 0).val = t.val / 25 ∧ ((grid0.coords t) 1).val = t.val % 25 :=
  (by decide +kernel : ∀ t : Fin grid0.N, ((grid0.coords t) 0).val = t.val / 25 ∧ ((grid0.coords t) 1).val = t.val % 25)

end Cert.KernelIdeal.Hand

end
-- ==== Proof.Data.lean ====
/-
  The proof data of the one pipeline, stated relationally, and the invariant the body keeps between points.

  What is carried from point to point outside the windows: the first scratch buffer, which after the first point holds
  x · W1 whole; and the second scratch buffer, of which after `n` points of the first phase the rows below `400 n` hold
  the rows of HW = relu(adj₀ · (x · W1) + b1) · W2 (nothing is known of the rows above: the buffer starts at contents
  nobody states). The output window's staging buffer is likewise only partly known until the last point: a point of the
  second phase overwrites its block of 400 rows with the rows of the result and leaves the other rows as found; a point of
  the first phase does not touch it. The input windows are left as found at every point.
-/
import proofs.«146803_g30416958390823_retrytranche2_1219_23_alg».proof.Proof.Gen.KernelIdeal.Skeleton
import proofs.«146803_g30416958390823_retrytranche2_1219_23_alg».proof.Proof.Spec
import proofs.«146803_g30416958390823_retrytranche2_1219_23_alg».proof.Proof.Cases

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The kernel's operands as the region finds them, and the functions of them the body forms -/

/-- x · W1 of the launched arrays. -/
def XW (c : Dev nD) : Vec F S10000x64 .f32 := xw (V m c main_arg0) (V m c main_arg2)

/-- HW = relu(adj₀ · (x · W1) + b1) · W2 of the launched arrays (b1 as its one-row reshape, made before the region). -/
def HW (c : Dev nD) : Vec F S10000x40 .f32 :=
  hw (V m c main_arg0) (V m c main_arg1) (V m c main_arg2) (V m c main_v0) (V m c main_arg4)

/-- The result, log_softmax(adj₁ · HW + b2), of the launched arrays. -/
def LS (c : Dev nD) : Vec F S10000x40 .f32 :=
  ls (V m c main_arg0) (V m c main_arg1) (V m c main_arg2) (V m c main_v0) (V m c main_arg4) (V m c main_v1)

/-! ## The scratch buffers and the invariant -/

/-- The scratch operands: whole scoped buffers of the kernel's own, passed beside the windows. -/
abbrev scM0 : Memref sig .tc .vmem S10000x64 .f32 := Memref.whole cc0_scratch0
abbrev scM1 : Memref sig .tc .vmem S10000x40 .f32 := Memref.whole cc0_scratch1

/-- The class's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Contents of the second scratch buffer whose rows below `400 n` are HW's. -/
def HWupto (c : Dev nD) (n : ℕ) (d : Vec F S10000x40 .f32) : Prop :=
  ∀ y : S10000x40.Idx, (y 0).val < 400 * n → d y = HW m c y

/-- The invariant before position `n`: before the first point the class's (every scratch at anything); afterwards the
    first scratch buffer at x · W1, the second at contents whose rows below `400 n` are HW's, and the generator
    register at some state. -/
def PhiS (c : Dev nD) : (n : ℕ) → sProp 𝕄
  | 0 => Pipeline.ΦA spec0 c
  | n + 1 => iprop(iprop(owns (c : Thread nD τ) scM0 fullShare (XW m c) ∗ (∃ d, ⌜HWupto m c (n + 1) d⌝ ∗ owns (c : Thread nD τ) scM1 fullShare d)) ∗ (∃ r, prngReg c r))

theorem PhiS_zero (c : Dev nD) : PhiS m c 0 = Pipeline.ΦA spec0 c := rfl

theorem PhiS_succ (c : Dev nD) (n : ℕ) :
    PhiS m c (n + 1) = iprop(iprop(owns (c : Thread nD τ) scM0 fullShare (XW m c) ∗ (∃ d, ⌜HWupto m c (n + 1) d⌝ ∗ owns (c : Thread nD τ) scM1 fullShare d)) ∗ (∃ r, prngReg c r)) := rfl

theorem PhiS_pos (c : Dev nD) (n : ℕ) (hz : n ≠ 0) :
    PhiS m c n = iprop(iprop(owns (c : Thread nD τ) scM0 fullShare (XW m c) ∗ (∃ d, ⌜HWupto m c n d⌝ ∗ owns (c : Thread nD τ) scM1 fullShare d)) ∗ (∃ r, prngReg c r)) := by
  cases n with
  | zero => exact absurd rfl hz
  | succ n => rfl

/-! ## The output window's relation -/

/-- What a point does to the output window's staging buffer: a point `t` of the second phase overwrites rows
    `[400 (t - 25), 400 (t - 25) + 400)` with the result's rows and keeps the others; a point of the first phase keeps all. -/
def OutStep (c : Dev nD) (t : Fin cfg0.N) (Y X : Vec F S10000x40 .f32) : Prop :=
  if 25 ≤ t.val then
    (∀ y : S10000x40.Idx, 400 * (t.val - 25) ≤ (y 0).val → (y 0).val < 400 * (t.val - 25) + 400 → X y = LS m c y)
      ∧ (∀ y : S10000x40.Idx, ((y 0).val < 400 * (t.val - 25) ∨ 400 * (t.val - 25) + 400 ≤ (y 0).val) → X y = Y y)
  else X = Y

/-- The proof data of the one pipeline on core `c`: the arrays as the region finds them; every input window's
    buffer left as found; the output window's by `OutStep`; the invariant `PhiS`; nothing owed; full shares. -/
def rd (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => OutStep m c t Y X
  Φ t := PhiS m c t.val
  q _ := fullShare
  owed _ := 0

theorem rd_A (c : Dev nD) (w : Fin cfg0.W) : (rd m c).A w = V m c (Pipeline.arrRef spec0 w) := by
  dsimp only [rd]

theorem rd_after_0 (c : Dev nD) (t : Fin cfg0.N) (Y X) : (rd m c).after 0 t Y X ↔ X = Y := by dsimp only [rd]; exact Iff.rfl
theorem rd_after_1 (c : Dev nD) (t : Fin cfg0.N) (Y X) : (rd m c).after 1 t Y X ↔ X = Y := by dsimp only [rd]; exact Iff.rfl
theorem rd_after_2 (c : Dev nD) (t : Fin cfg0.N) (Y X) : (rd m c).after 2 t Y X ↔ X = Y := by dsimp only [rd]; exact Iff.rfl
theorem rd_after_3 (c : Dev nD) (t : Fin cfg0.N) (Y X) : (rd m c).after 3 t Y X ↔ X = Y := by dsimp only [rd]; exact Iff.rfl
theorem rd_after_4 (c : Dev nD) (t : Fin cfg0.N) (Y X) : (rd m c).after 4 t Y X ↔ X = Y := by dsimp only [rd]; exact Iff.rfl
theorem rd_after_5 (c : Dev nD) (t : Fin cfg0.N) (Y X) : (rd m c).after 5 t Y X ↔ X = Y := by dsimp only [rd]; exact Iff.rfl
theorem rd_after_6 (c : Dev nD) (t : Fin cfg0.N) (Y X) : (rd m c).after 6 t Y X ↔ OutStep m c t Y X := by dsimp only [rd]; exact Iff.rfl

theorem rd_Phi (c : Dev nD) (t : Fin (cfg0.N + 1)) : (rd m c).Φ t = PhiS m c t.val := rfl

end Cert.KernelIdeal.Hand

end
-- ==== Proof.BodyDefs.lean ====
/-
  The body obligation's two sides at a point, window by window.
-/
import proofs.«146803_g30416958390823_retrytranche2_1219_23_alg».proof.Proof.Gen.KernelIdeal.Skeleton
import proofs.«146803_g30416958390823_retrytranche2_1219_23_alg».proof.Proof.Data

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Each window's current staging memref at point `t`, as the pipeline passes it to the body, and its wholeness. -/
abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x40 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x40 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S10000x40 .f32 := win0_6.stage (cfg0.slots t 6)
abbrev hs6 (t : Fin cfg0.N) : (ms6 t).IsWhole := hstage0_6 ((cfg0.slots t 6).cast nbuf0_6)

/-- What the body is handed at point `t`: the invariant, what the core owes, and every window's current buffer at
    the contents `Y` names. -/
def bodyPre (c : Dev nD) (t : Fin cfg0.N) (Y : (w : Fin cfg0.W) → (cfg0.win w).block.Idx → Elt F (cfg0.win w).elt) : sProp 𝕄 :=
  iprop((rd m c).Φ t.castSucc ∗ (rd m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6))

/-- What it hands back: the invariant at the next point, what the core owes, and every window's current buffer at
    contents in the window's relation to what was handed over. -/
def bodyPost (c : Dev nD) (t : Fin cfg0.N) (Y : (w : Fin cfg0.W) → (cfg0.win w).block.Idx → Elt F (cfg0.win w).elt) : sProp 𝕄 :=
  iprop((rd m c).Φ t.succ ∗ (rd m c).owesAt () t.succ
    ∗ (∃ X, ⌜(rd m c).after 0 t (Y 0) X⌝ ∗ owns (c : Thread nD τ) (ms0 t) fullShare X)
    ∗ (∃ X, ⌜(rd m c).after 1 t (Y 1) X⌝ ∗ owns (c : Thread nD τ) (ms1 t) fullShare X)
    ∗ (∃ X, ⌜(rd m c).after 2 t (Y 2) X⌝ ∗ owns (c : Thread nD τ) (ms2 t) fullShare X)
    ∗ (∃ X, ⌜(rd m c).after 3 t (Y 3) X⌝ ∗ owns (c : Thread nD τ) (ms3 t) fullShare X)
    ∗ (∃ X, ⌜(rd m c).after 4 t (Y 4) X⌝ ∗ owns (c : Thread nD τ) (ms4 t) fullShare X)
    ∗ (∃ X, ⌜(rd m c).after 5 t (Y 5) X⌝ ∗ owns (c : Thread nD τ) (ms5 t) fullShare X)
    ∗ (∃ X, ⌜(rd m c).after 6 t (Y 6) X⌝ ∗ owns (c : Thread nD τ) (ms6 t) fullShare X))

/-- The same with the input windows at their blocks and the invariant spelt at the point's number: the form the three
    cases are proved in. -/
def casePre (c : Dev nD) (t : Fin cfg0.N) (Y6 : Vec F S10000x40 .f32) : sProp 𝕄 :=
  iprop(PhiS m c t.val ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare Y6)

def casePost (c : Dev nD) (t : Fin cfg0.N) (Y6 : Vec F S10000x40 .f32) : sProp 𝕄 :=
  iprop(PhiS m c (t.val + 1) ∗ (rd m c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ (∃ X, ⌜OutStep m c t Y6 X⌝ ∗ owns (c : Thread nD τ) (ms6 t) fullShare X))

end Cert.KernelIdeal.Hand

end
-- ==== Proof.Blocks.lean ====
/-
  What the body finds in each input window's staging buffer, and what those blocks are.

  Every input window's relation leaves its buffer as found, so whatever the body may find there at a point is the
  block a fetch put there: the window's block of its array at that point. The adjacency window's block at point t is
  rows [400 (t % 25), 400 (t % 25) + 400) of layer t / 25 of the stack; the five other windows are whole arrays at block
  index 0 on every axis at every point, so their block is the array itself.
-/
import proofs.«146803_g30416958390823_retrytranche2_1219_23_alg».proof.Proof.Data
import Idealize.ShloMosaic.Lib.Pipeline.FrameBody

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the body finds in an input window's buffer is the window's block

An input window, uncut, whose relation leaves the buffer as found: what is found is a fetched block, and a fetch of an
uncut window fills the whole buffer with the array's block. -/

/-- Whatever the body may find in input window 0's buffer at a point is the window's block there. -/
theorem finds_0 (c : Dev nD) (t : Fin cfg0.N) (Y) (h : (rd m c).Finds 0 t Y) : Y = iblk m c 0 t := by
  obtain ⟨d, hd⟩ := (rd m c).finds_in_eq_fetched 0 rfl (fun _ _ _ => rfl) (fun t Y X hR => (rd_after_0 m c t Y X).mp hR) t Y h
  rw [hd]; unfold RDat.fetched RDat.blockOf iblk; rw [rd_A]; rfl

/-- Whatever the body may find in input window 1's buffer at a point is the window's block there. -/
theorem finds_1 (c : Dev nD) (t : Fin cfg0.N) (Y) (h : (rd m c).Finds 1 t Y) : Y = iblk m c 1 t := by
  obtain ⟨d, hd⟩ := (rd m c).finds_in_eq_fetched 1 rfl (fun _ _ _ => rfl) (fun t Y X hR => (rd_after_1 m c t Y X).mp hR) t Y h
  rw [hd]; unfold RDat.fetched RDat.blockOf iblk; rw [rd_A]; rfl

/-- Whatever the body may find in input window 2's buffer at a point is the window's block there. -/
theorem finds_2 (c : Dev nD) (t : Fin cfg0.N) (Y) (h : (rd m c).Finds 2 t Y) : Y = iblk m c 2 t := by
  obtain ⟨d, hd⟩ := (rd m c).finds_in_eq_fetched 2 rfl (fun _ _ _ => rfl) (fun t Y X hR => (rd_after_2 m c t Y X).mp hR) t Y h
  rw [hd]; unfold RDat.fetched RDat.blockOf iblk; rw [rd_A]; rfl

/-- Whatever the body may find in input window 3's buffer at a point is the window's block there. -/
theorem finds_3 (c : Dev nD) (t : Fin cfg0.N) (Y) (h : (rd m c).Finds 3 t Y) : Y = iblk m c 3 t := by
  obtain ⟨d, hd⟩ := (rd m c).finds_in_eq_fetched 3 rfl (fun _ _ _ => rfl) (fun t Y X hR => (rd_after_3 m c t Y X).mp hR) t Y h
  rw [hd]; unfold RDat.fetched RDat.blockOf iblk; rw [rd_A]; rfl

/-- Whatever the body may find in input window 4's buffer at a point is the window's block there. -/
theorem finds_4 (c : Dev nD) (t : Fin cfg0.N) (Y) (h : (rd m c).Finds 4 t Y) : Y = iblk m c 4 t := by
  obtain ⟨d, hd⟩ := (rd m c).finds_in_eq_fetched 4 rfl (fun _ _ _ => rfl) (fun t Y X hR => (rd_after_4 m c t Y X).mp hR) t Y h
  rw [hd]; unfold RDat.fetched RDat.blockOf iblk; rw [rd_A]; rfl

/-- Whatever the body may find in input window 5's buffer at a point is the window's block there. -/
theorem finds_5 (c : Dev nD) (t : Fin cfg0.N) (Y) (h : (rd m c).Finds 5 t Y) : Y = iblk m c 5 t := by
  obtain ⟨d, hd⟩ := (rd m c).finds_in_eq_fetched 5 rfl (fun _ _ _ => rfl) (fun t Y X hR => (rd_after_5 m c t Y X).mp hR) t Y h
  rw [hd]; unfold RDat.fetched RDat.blockOf iblk; rw [rd_A]; rfl

/-! ## The block indices over the grid -/

/-- The adjacency window's block index at point t is (t / 25, t % 25, 0). -/
theorem idx0 : ∀ t : Fin cfg0.N, win0_0.index t (0 : Fin 3) = t.val / 25 ∧ win0_0.index t (1 : Fin 3) = t.val % 25 ∧ win0_0.index t (2 : Fin 3) = 0 :=
  (by decide +kernel : ∀ t : Fin grid0.N, win0_0.index t (0 : Fin 3) = t.val / 25 ∧ win0_0.index t (1 : Fin 3) = t.val % 25 ∧ win0_0.index t (2 : Fin 3) = 0)

/-- Window 1's block index is 0 on both axes at every point. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2's block index is 0 on both axes at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3's block index is 0 on both axes at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4's block index is 0 on both axes at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5's block index is 0 on both axes at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-! ## The blocks, read off the arrays

A block's coordinate on an axis is the block index times the block's size there plus the coordinate inside the block. -/

/-- The adjacency window's block at point t = 25 p + i is rows [400 i, 400 i + 400) of layer p of the stack. -/
theorem iblk_0 (c : Dev nD) (t : Fin cfg0.N) (p : Fin 2) (i : Fin 25) (hp : t.val / 25 = p.val) (hi : t.val % 25 = i.val) :
    iblk m c 0 t = adjRows (V m c main_arg1) p i := by
  obtain ⟨e0, e1, e2⟩ := idx0 t
  funext y
  show V m c main_arg1 (((cfg0.win 0).blk t).view.emb y) = V m c main_arg1 _
  congr 1
  funext a; apply Fin.ext
  have h0 : (y 0).val < 1 := (y 0).isLt
  match a with
  | ⟨0, _⟩ => show win0_0.index t (0 : Fin 3) * 1 + 1 * (y 0).val = p.val; omega
  | ⟨1, _⟩ => show win0_0.index t (1 : Fin 3) * 400 + 1 * (y 1).val = 400 * i.val + (y 1).val; omega
  | ⟨2, _⟩ => show win0_0.index t (2 : Fin 3) * 10000 + 1 * (y 2).val = (y 2).val; omega

/-- Window 1's block at every point is its whole array. -/
theorem iblk_1 (c : Dev nD) (t : Fin cfg0.N) : iblk m c 1 t = V m c main_arg0 := by
  obtain ⟨e0, e1⟩ := idx1 t
  funext y
  show V m c main_arg0 (((cfg0.win 1).blk t).view.emb y) = V m c main_arg0 y
  congr 1
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- Window 2's block at every point is its whole array. -/
theorem iblk_2 (c : Dev nD) (t : Fin cfg0.N) : iblk m c 2 t = V m c main_arg2 := by
  obtain ⟨e0, e1⟩ := idx2 t
  funext y
  show V m c main_arg2 (((cfg0.win 2).blk t).view.emb y) = V m c main_arg2 y
  congr 1
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 3's block at every point is its whole array. -/
theorem iblk_3 (c : Dev nD) (t : Fin cfg0.N) : iblk m c 3 t = V m c main_v0 := by
  obtain ⟨e0, e1⟩ := idx3 t
  funext y
  show V m c main_v0 (((cfg0.win 3).blk t).view.emb y) = V m c main_v0 y
  congr 1
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 4's block at every point is its whole array. -/
theorem iblk_4 (c : Dev nD) (t : Fin cfg0.N) : iblk m c 4 t = V m c main_arg4 := by
  obtain ⟨e0, e1⟩ := idx4 t
  funext y
  show V m c main_arg4 (((cfg0.win 4).blk t).view.emb y) = V m c main_arg4 y
  congr 1
  funext a; apply Fin.ext
  match a with
  | ⟨0, _⟩ => show win0_4.index t (0 : Fin 2) * 64 + 1 * (y 0).val = (y 0).val; omega
  | ⟨1, _⟩ => show win0_4.index t (1 : Fin 2) * 40 + 1 * (y 1).val = (y 1).val; omega

/-- Window 5's block at every point is its whole array. -/
theorem iblk_5 (c : Dev nD) (t : Fin cfg0.N) : iblk m c 5 t = V m c main_v1 := by
  obtain ⟨e0, e1⟩ := idx5 t
  funext y
  show V m c main_v1 (((cfg0.win 5).blk t).view.emb y) = V m c main_v1 y
  congr 1
  funext a; apply Fin.ext
  match a with
  | ⟨0, _⟩ => show win0_5.index t (0 : Fin 2) * 1 + 1 * (y 0).val = (y 0).val; omega
  | ⟨1, _⟩ => show win0_5.index t (1 : Fin 2) * 40 + 1 * (y 1).val = (y 1).val; omega

end Cert.KernelIdeal.Hand

end
-- ==== Proof.Zeros.lean ====
import Mathlib.Data.Fin.VecNotation
/-
  The zero offsets of a whole-buffer load or store, however many axes, are the constant function zero.
-/

namespace Cert.KernelIdeal.Hand

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

end Cert.KernelIdeal.Hand
-- ==== Proof.Pointwise.lean ====
/-
  One store of 400 whole rows, or of the whole buffer, read back element by element.

  A whole staging buffer that holds `s` and takes one store of rows `[o, o + 400)` holds afterwards the stored value on
  those rows (at the row's position inside the block) and `s` on every other row; one store of the whole buffer leaves
  the stored value.
-/
import proofs.«146803_g30416958390823_retrytranche2_1219_23_alg».proof.Proof.Gen.KernelIdeal.Skeleton
import proofs.«146803_g30416958390823_retrytranche2_1219_23_alg».proof.Proof.Zeros
import Idealize.ShloMosaic.Lib.WritesUnit
import Idealize.ShloMosaic.Lib.Pipeline.Frame

noncomputable section

namespace Cert.KernelIdeal.Hand

open Idealize.ShloMosaic Cert.KernelIdeal Cert.KernelIdeal.Gen

variable {F : FTy → Type} [FloatOps F]

/-- A row of the stored block reads the stored value at the row's position in the block. -/
theorem read_rows_in {sp : Space} (M : Memref sig .tc sp S10000x40 .f32) (hM : M.IsWhole) (s : Vec F S10000x40 .f32)
    (off : Fin 2 → ℕ) (inb : ∀ a, off a + S400x40.size a ≤ S10000x40.size a) (P : FVec F S400x40 .f32) (o : ℕ)
    (hoff : off = ![o, 0]) (y : S10000x40.Idx) (x : S400x40.Idx)
    (h0 : (y 0).val = o + (x 0).val) (h1 : (y 1).val = (x 1).val) :
    M.view.read (Elt F) (M.view.writes (Elt F) (hM.unread s) [⟨Rect.unit (s := S10000x40) off S400x40.size inb, P⟩]) y = P x :=
  View.read_writes_cons_rows_of_mem M.view (hM.unread s) inb P [] y x hoff h0 h1

/-- A row outside the stored block reads what the buffer held. -/
theorem read_rows_out {sp : Space} (M : Memref sig .tc sp S10000x40 .f32) (hM : M.IsWhole) (s : Vec F S10000x40 .f32)
    (off : Fin 2 → ℕ) (inb : ∀ a, off a + S400x40.size a ≤ S10000x40.size a) (P : FVec F S400x40 .f32) (o : ℕ)
    (hoff : off = ![o, 0]) (y : S10000x40.Idx) (h : (y 0).val < o ∨ o + 400 ≤ (y 0).val) :
    M.view.read (Elt F) (M.view.writes (Elt F) (hM.unread s) [⟨Rect.unit (s := S10000x40) off S400x40.size inb, P⟩]) y = s y := by
  rw [View.read_writes_cons_rows_of_not_mem M.view (hM.unread s) inb P [] y hoff rfl h, View.writes_nil]
  exact congrFun (hM.read_unread s) y

/-- One store of the whole buffer leaves the stored value. -/
theorem read_whole {sp : Space} (M : Memref sig .tc sp S10000x64 .f32) (hM : M.IsWhole) (s : Vec F S10000x64 .f32)
    (inb : ∀ a, (![0, 0] : Fin 2 → ℕ) a + S10000x64.size a ≤ S10000x64.size a) (P : FVec F S10000x64 .f32) :
    M.view.read (Elt F) (M.view.writes (Elt F) (hM.unread s) [⟨Rect.unit (s := S10000x64) ![0, 0] S10000x64.size inb, P⟩]) = P := by
  funext y
  exact View.read_writes_cons_unit_of_mem M.view (hM.unread s) inb P [] y y rfl (fun a => by
    match a with
    | ⟨0, _⟩ => exact (Nat.zero_add _).symm
    | ⟨1, _⟩ => exact (Nat.zero_add _).symm)

end Cert.KernelIdeal.Hand

end
-- ==== Proof.Steps.lean ====
/-
  What one point does to the carried buffers, as facts about contents (no program logic here).

  A point `t < 25` of the first phase stores the rows of HW of its block into the second scratch buffer: if the rows
  below `400 t` were HW's before, the rows below `400 (t + 1)` are after. A point `t ≥ 25` of the second phase finds the
  second scratch buffer at HW whole and stores the rows of the result of its block `t - 25` into the output buffer.
  The blocks the body loads are the corresponding pieces of the launched arrays.
-/
import proofs.«146803_g30416958390823_retrytranche2_1219_23_alg».proof.Proof.Gen.KernelIdeal.Skeleton
import proofs.«146803_g30416958390823_retrytranche2_1219_23_alg».proof.Proof.Blocks
import proofs.«146803_g30416958390823_retrytranche2_1219_23_alg».proof.Proof.Pointwise

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The number of grid points, as a numeral. -/
theorem N_eq : cfg0.N = 50 := N_0

/-- The first stored value at the first point is x · W1 of the launched arrays. -/
theorem xw_block (c : Dev nD) (t : Fin cfg0.N) : k0_pay1 (iblk m c 1 t) (iblk m c 2 t) = XW m c := by
  rw [iblk_1, iblk_2]; rfl

/-- Contents whose rows below `400 n` are HW's, `25 ≤ n`, are HW. -/
theorem eq_HW_of_upto (c : Dev nD) (n : ℕ) (hn : 25 ≤ n) (d : Vec F S10000x40 .f32) (h : HWupto m c n d) : d = HW m c := by
  funext y
  have hy : (y 0).val < 10000 := (y 0).isLt
  exact h y (by omega)

theorem upto_of_eq_HW (c : Dev nD) (n : ℕ) : HWupto m c n (HW m c) := fun _ _ => rfl

/-- The stored value of a first-phase point at a row of its block is HW's entry. -/
theorem hw_block (c : Dev nD) (t : Fin cfg0.N) (ht : t.val < 25) (y : S10000x40.Idx) (hy : (y 0).val / 400 = t.val) :
    k0_pay2 (iblk m c 0 t) (XW m c) (iblk m c 3 t) (iblk m c 4 t) (rowLoc y) = HW m c y := by
  have hb : rowBlk y = ⟨t.val, ht⟩ := Fin.ext hy
  rw [iblk_0 m c t 0 ⟨t.val, ht⟩ (by show t.val / 25 = 0; omega) (by show t.val % 25 = t.val; omega), iblk_3, iblk_4]
  unfold HW hw hwRows XW
  rw [hb]

/-- The stored value of a second-phase point at a row of its block is the result's entry. -/
theorem ls_block (c : Dev nD) (t : Fin cfg0.N) (ht : 25 ≤ t.val) (y : S10000x40.Idx) (hy : (y 0).val / 400 = t.val - 25) :
    k0_pay3 (iblk m c 0 t) (HW m c) (iblk m c 5 t) (rowLoc y) = LS m c y := by
  have hN : t.val < 50 := lt_of_lt_of_eq t.isLt (N_eq)
  have hb : rowBlk y = ⟨t.val - 25, by omega⟩ := Fin.ext hy
  rw [iblk_0 m c t 1 ⟨t.val - 25, by omega⟩ (by show t.val / 25 = 1; omega) (by show t.val % 25 = t.val - 25; omega), iblk_5]
  unfold LS ls lsRows HW
  rw [hb]

/-- A first-phase point's store extends the known rows of the second scratch buffer by its block. -/
theorem hw_step (c : Dev nD) (t : Fin cfg0.N) (ht : t.val < 25) {sp : Space} (M : Memref sig .tc sp S10000x40 .f32) (hM : M.IsWhole)
    (s1 : Vec F S10000x40 .f32) (h : HWupto m c t.val s1)
    (inb : ∀ a, (k0_off1 (grid0.coords t)) a + S400x40.size a ≤ S10000x40.size a) :
    HWupto m c (t.val + 1) (M.view.read (Elt F) (M.view.writes (Elt F) (hM.unread s1)
      [⟨Rect.unit (s := S10000x40) (k0_off1 (grid0.coords t)) S400x40.size inb, k0_pay2 (iblk m c 0 t) (XW m c) (iblk m c 3 t) (iblk m c 4 t)⟩])) := by
  intro y hy
  have hoff : k0_off1 (grid0.coords t) = ![400 * t.val, 0] := by
    rw [k0_off1_eq, (coords_val t).2]
    have : t.val % 25 = t.val := Nat.mod_eq_of_lt ht
    rw [this]
  by_cases hlt : (y 0).val < 400 * t.val
  · rw [read_rows_out M hM s1 _ inb _ (400 * t.val) hoff y (Or.inl hlt)]
    exact h y hlt
  · have hq : (y 0).val / 400 = t.val := by omega
    rw [read_rows_in M hM s1 _ inb _ (400 * t.val) hoff y (rowLoc y) (by show (y 0).val = 400 * t.val + (y 0).val % 400; omega) rfl]
    exact hw_block m c t ht y hq

/-- A second-phase point's store is the output window's step. -/
theorem out_step (c : Dev nD) (t : Fin cfg0.N) (ht : 25 ≤ t.val) {sp : Space} (M : Memref sig .tc sp S10000x40 .f32) (hM : M.IsWhole)
    (Y : Vec F S10000x40 .f32)
    (inb : ∀ a, (k0_off2 (grid0.coords t)) a + S400x40.size a ≤ S10000x40.size a) :
    OutStep m c t Y (M.view.read (Elt F) (M.view.writes (Elt F) (hM.unread Y)
      [⟨Rect.unit (s := S10000x40) (k0_off2 (grid0.coords t)) S400x40.size inb, k0_pay3 (iblk m c 0 t) (HW m c) (iblk m c 5 t)⟩])) := by
  have hN : t.val < 50 := lt_of_lt_of_eq t.isLt (N_eq)
  have hoff : k0_off2 (grid0.coords t) = ![400 * (t.val - 25), 0] := by
    rw [k0_off2_eq, (coords_val t).2]
    have : t.val % 25 = t.val - 25 := by omega
    rw [this]
  unfold OutStep
  rw [if_pos ht]
  refine ⟨fun y h1 h2 => ?_, fun y h => ?_⟩
  · have hq : (y 0).val / 400 = t.val - 25 := by omega
    rw [read_rows_in M hM Y _ inb _ (400 * (t.val - 25)) hoff y (rowLoc y) (by show (y 0).val = 400 * (t.val - 25) + (y 0).val % 400; omega) rfl]
    exact ls_block m c t ht y hq
  · exact read_rows_out M hM Y _ inb _ (400 * (t.val - 25)) hoff y h

end Cert.KernelIdeal.Hand

end
-- ==== Proof.RunA.lean ====
/-
  The body at the first point: it forms x · W1 from the whole of x and of W1 and stores it over the whole first scratch buffer; then, as at every point of the first phase, it reads its block of 400 rows of the first adjacency layer, that product back from the scratch buffer, b1 and W2, and stores the block's rows of relu(adj₀ · (x · W1) + b1) · W2 into rows [0, 400) of the second scratch buffer. The two lists of stores are the witness.
-/
import proofs.«146803_g30416958390823_retrytranche2_1219_23_alg».proof.Proof.Gen.KernelIdeal.Skeleton
import proofs.«146803_g30416958390823_retrytranche2_1219_23_alg».proof.Proof.Cases
import Idealize.ShloMosaic.Lib.Pipeline.Value
import proofs.«146803_g30416958390823_retrytranche2_1219_23_alg».proof.Proof.Zeros

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (s0 : Vec F S10000x64 .f32) (s1 : Vec F S10000x40 .f32) :
    { LS : List (View.Piece (Elt F) S10000x64 .f32) × List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare s0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ (arg9.view.loc (c : Thread nD τ) ↦[arg9.view.set]{fullShare} arg9.view.writes (Elt F) (harg9.unread s0) LS.1) ∗ (arg10.view.loc (c : Thread nD τ) ↦[arg10.view.set]{fullShare} arg10.view.writes (Elt F) (harg10.unread s1) LS.2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨⟨?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexact HS0
    iexact HS1

/-- The two stores of the run above: the first scratch buffer, whole, takes x · W1; rows `[0, 400)` of the second
    scratch buffer take the block's rows of relu(adj₀ · (x · W1) + b1) · W2, the product read back from the first
    scratch buffer (a load of a whole buffer reads its contents; a load after one covering store reads what was stored). -/
theorem runA_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (s0 : Vec F S10000x64 .f32) (s1 : Vec F S10000x40 .f32) :
    (runA c i arg2 harg2 arg3 harg3 arg4 harg4 arg5 harg5 arg6 harg6 arg7 harg7 arg8 harg8 arg9 harg9 arg10 harg10 hc0 hc1 hc2 x0 x1 x2 x3 x4 x5 y6 s0 s1).1
      = ([⟨Rect.unit (s := S10000x64) ![0, 0] S10000x64.size inb_S10000x64_S10000x64_0_0, k0_pay1 x1 x2⟩],
         [⟨Rect.unit (s := S10000x40) (k0_off1 i) S400x40.size (k0_off1_inb i hc1), k0_pay2 x0 (k0_pay1 x1 x2) x3 x4⟩]) := by
  unfold runA
  dsimp only
  sl_unfold_words
  simp only [View.readAt_eq_ld, Memref.IsWhole.read_unread, View.ld_unit_zero (S := S1x400x10000) hz3,
    View.ld_unit_zero (S := S10000x128) hz2, View.ld_unit_zero (S := S128x64) hz2,
    View.ld_unit_zero (S := S10000x64) hz2, View.ld_unit_zero (S := S1x64) hz2, View.ld_unit_zero (S := S64x40) hz2,
    View.readCov_unit_zero (S := S10000x64) _ hz2]

end Cert.KernelIdeal.Hand

end
-- ==== Proof.BodyA.lean ====
/-
  The body obligation at the first point.
-/
import proofs.«146803_g30416958390823_retrytranche2_1219_23_alg».proof.Proof.Gen.KernelIdeal.Skeleton
import proofs.«146803_g30416958390823_retrytranche2_1219_23_alg».proof.Proof.BodyDefs
import proofs.«146803_g30416958390823_retrytranche2_1219_23_alg».proof.Proof.Steps
import proofs.«146803_g30416958390823_retrytranche2_1219_23_alg».proof.Proof.RunA

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the first point both scratch buffers hold anything; the body's first store leaves x · W1 in the first, its second
    HW's rows below 400 in the second; every window's buffer is left as found. -/
theorem caseA (c : Dev nD) (t : Fin cfg0.N) (h0 : t.val = 0) (Y6 : Vec F S10000x40 .f32) :
    casePre m c t Y6 ⊢ wp frame (wpE (defs₀ (F := F)) Variants.none c none) Set.univ (bodyAt0 t) (fun _ => casePost m c t Y6) := by
  unfold casePre casePost bodyAt0
  have h1 : t.val < 25 := by omega
  rw [show PhiS m c t.val = PhiS m c 0 from by rw [h0], PhiS_zero, PhiA_eq, PhiS_succ]
  have hc0 : condFirst (grid0.coords t) := (condFirst_iff t).mpr h0
  have hc1 : condPh0 (grid0.coords t) := (condPh0_iff t).mpr h1
  have hc2 : ¬condPh1 (grid0.coords t) := fun h => absurd ((condPh1_iff t).mp h) (by omega)
  iintro ⟨⟨⟨⟨%s0, HS0⟩, ⟨%s1, HS1⟩⟩, Hg⟩, Ho, H0, H1, H2, H3, H4, H5, H6⟩
  iapply ((runA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 s0 s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · unfold owns; iexists _; isplitr; swap; · iexact HS0
        ipureintro
        rw [runA_pieces]
        exact (read_whole scM0 (Memref.isWhole_whole _) s0 _ _).trans (xw_block m c t)
      iexists _
      isplitr
      swap
      · unfold owns; iexists _; isplitr; swap; · iexact HS1
        ipureintro; rfl
      ipureintro
      rw [runA_pieces, xw_block m c t]
      exact hw_step m c t h1 scM1 (Memref.isWhole_whole _) s1 (fun y hy => absurd hy (by rw [h0]; omega)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  unfold OutStep
  rw [if_neg (by omega)]

end Cert.KernelIdeal.Hand

end
-- ==== Proof.RunB.lean ====
/-
  The body at a point of the first phase after the first (points 1 … 24): it reads its block of 400 rows of the first adjacency layer, the whole of x · W1 from the first scratch buffer, b1 and W2, and stores the block's rows of relu(adj₀ · (x · W1) + b1) · W2 into rows [400 i, 400 i + 400) of the second scratch buffer; every other buffer is left as found. The list of stores into the second scratch buffer is the witness.
-/
import proofs.«146803_g30416958390823_retrytranche2_1219_23_alg».proof.Proof.Gen.KernelIdeal.Skeleton
import proofs.«146803_g30416958390823_retrytranche2_1219_23_alg».proof.Proof.Cases
import Idealize.ShloMosaic.Lib.Pipeline.Value
import proofs.«146803_g30416958390823_retrytranche2_1219_23_alg».proof.Proof.Zeros

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (s1 : Vec F S10000x40 .f32) :
    { LS1 : List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ owns (c : Thread nD τ) arg10 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ arg10.view.loc (c : Thread nD τ) ↦[arg10.view.set]{fullShare} arg10.view.writes (Elt F) (harg10.unread s1) LS1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexact HS1

/-- The one store of the run above: rows `[400 i, 400 i + 400)` of the second scratch buffer take the block's rows of
    relu(adj₀ · (x · W1) + b1) · W2, formed from the loaded block, the first scratch buffer's contents, b1 and W2
    (a load of a whole buffer reads its contents). -/
theorem runB_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : condPh0 i) (hc2 : ¬condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (s1 : Vec F S10000x40 .f32) :
    (runB c i arg2 harg2 arg3 harg3 arg4 harg4 arg5 harg5 arg6 harg6 arg7 harg7 arg8 harg8 arg9 harg9 arg10 harg10 hc0 hc1 hc2 x0 x1 x2 x3 x4 x5 y6 xs0 s1).1
      = [⟨Rect.unit (s := S10000x40) (k0_off1 i) S400x40.size (k0_off1_inb i hc1), k0_pay2 x0 xs0 x3 x4⟩] := by
  unfold runB
  dsimp only
  simp only [View.readAt_eq_ld, Memref.IsWhole.read_unread, View.ld_unit_zero (S := S1x400x10000) hz3,
    View.ld_unit_zero (S := S10000x64) hz2, View.ld_unit_zero (S := S1x64) hz2, View.ld_unit_zero (S := S64x40) hz2]

end Cert.KernelIdeal.Hand

end
-- ==== Proof.BodyB.lean ====
/-
  The body obligation at a point of the first phase after the first (points 1 … 24).
-/
import proofs.«146803_g30416958390823_retrytranche2_1219_23_alg».proof.Proof.Gen.KernelIdeal.Skeleton
import proofs.«146803_g30416958390823_retrytranche2_1219_23_alg».proof.Proof.BodyDefs
import proofs.«146803_g30416958390823_retrytranche2_1219_23_alg».proof.Proof.Steps
import proofs.«146803_g30416958390823_retrytranche2_1219_23_alg».proof.Proof.RunB

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a point `0 < t < 25` the first scratch buffer holds x · W1 and the second HW's rows below `400 t`; the body's one
    store extends them to the rows below `400 (t + 1)`; every window's buffer is left as found. -/
theorem caseB (c : Dev nD) (t : Fin cfg0.N) (h0 : t.val ≠ 0) (h1 : t.val < 25) (Y6 : Vec F S10000x40 .f32) :
    casePre m c t Y6 ⊢ wp frame (wpE (defs₀ (F := F)) Variants.none c none) Set.univ (bodyAt0 t) (fun _ => casePost m c t Y6) := by
  unfold casePre casePost bodyAt0
  rw [PhiS_pos m c t.val h0, PhiS_succ]
  have hc0 : ¬condFirst (grid0.coords t) := fun h => h0 ((condFirst_iff t).mp h)
  have hc1 : condPh0 (grid0.coords t) := (condPh0_iff t).mpr h1
  have hc2 : ¬condPh1 (grid0.coords t) := fun h => absurd ((condPh1_iff t).mp h) (by omega)
  iintro ⟨⟨⟨HS0, ⟨%s1, %hup, HS1⟩⟩, Hg⟩, Ho, H0, H1, H2, H3, H4, H5, H6⟩
  iapply ((runB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 (XW m c) s1).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _
      isplitr
      swap
      · unfold owns; iexists _; isplitr; swap; · iexact HS1
        ipureintro; rfl
      ipureintro
      rw [runB_pieces]
      exact hw_step m c t h1 scM1 (Memref.isWhole_whole _) s1 hup _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap; · iexact H6
  ipureintro
  unfold OutStep
  rw [if_neg (by omega)]

end Cert.KernelIdeal.Hand

end
-- ==== Proof.RunC.lean ====
/-
  The body at a point of the second phase (points 25 … 49): it reads its block of 400 rows of the second adjacency layer, the whole second scratch buffer and b2, and stores the block's rows of log_softmax(adj₁ · HW + b2) into rows [400 i, 400 i + 400) of the output buffer; every other buffer is left as found. The list of stores into the output buffer is the witness.
-/
import proofs.«146803_g30416958390823_retrytranche2_1219_23_alg».proof.Proof.Gen.KernelIdeal.Skeleton
import proofs.«146803_g30416958390823_retrytranche2_1219_23_alg».proof.Proof.Cases
import Idealize.ShloMosaic.Lib.Pipeline.Value
import proofs.«146803_g30416958390823_retrytranche2_1219_23_alg».proof.Proof.Zeros

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : ¬condPh0 i) (hc2 : condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (xs1 : Vec F S10000x40 .f32) :
    { LS6 : List (View.Piece (Elt F) S10000x40 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (arg8.view.loc (c : Thread nD τ) ↦[arg8.view.set]{fullShare} arg8.view.writes (Elt F) (harg8.unread y6) LS6) ∗ owns (c : Thread nD τ) arg9 fullShare xs0 ∗ owns (c : Thread nD τ) arg10 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexact H6
    isplitl [HS0]
    · iexists _; isplitr; · ipureintro; exact harg9.read_unread _
      iexact HS0
    iexists _; isplitr; · ipureintro; exact harg10.read_unread _
    iexact HS1

/-- The one store of the run above: rows `[400 i, 400 i + 400)` of the output buffer take the block's rows of
    log_softmax(adj₁ · HW + b2), formed from the loaded block, the second scratch buffer's contents and b2
    (a load of a whole buffer reads its contents). -/
theorem runC_pieces (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x40 .f32) (harg6 : arg6.IsWhole) (arg7 : Memref sig .tc .vmem S1x40 .f32) (harg7 : arg7.IsWhole) (arg8 : Memref sig .tc .vmem S10000x40 .f32) (harg8 : arg8.IsWhole) (arg9 : Memref sig .tc .vmem S10000x64 .f32) (harg9 : arg9.IsWhole) (arg10 : Memref sig .tc .vmem S10000x40 .f32) (harg10 : arg10.IsWhole) (hc0 : ¬condFirst i) (hc1 : ¬condPh0 i) (hc2 : condPh1 i)
    (x0 : Vec F S1x400x10000 .f32) (x1 : Vec F S10000x128 .f32) (x2 : Vec F S128x64 .f32) (x3 : Vec F S1x64 .f32) (x4 : Vec F S64x40 .f32) (x5 : Vec F S1x40 .f32) (y6 : Vec F S10000x40 .f32) (xs0 : Vec F S10000x64 .f32) (xs1 : Vec F S10000x40 .f32) :
    (runC c i arg2 harg2 arg3 harg3 arg4 harg4 arg5 harg5 arg6 harg6 arg7 harg7 arg8 harg8 arg9 harg9 arg10 harg10 hc0 hc1 hc2 x0 x1 x2 x3 x4 x5 y6 xs0 xs1).1
      = [⟨Rect.unit (s := S10000x40) (k0_off2 i) S400x40.size (k0_off2_inb i hc2), k0_pay3 x0 xs1 x5⟩] := by
  unfold runC
  dsimp only
  simp only [View.readAt_eq_ld, Memref.IsWhole.read_unread, View.ld_unit_zero (S := S1x400x10000) hz3,
    View.ld_unit_zero (S := S10000x40) hz2, View.ld_unit_zero (S := S1x40) hz2]

end Cert.KernelIdeal.Hand

end
-- ==== Proof.BodyC.lean ====
/-
  The body obligation at a point of the second phase (points 25 … 49).
-/
import proofs.«146803_g30416958390823_retrytranche2_1219_23_alg».proof.Proof.Gen.KernelIdeal.Skeleton
import proofs.«146803_g30416958390823_retrytranche2_1219_23_alg».proof.Proof.BodyDefs
import proofs.«146803_g30416958390823_retrytranche2_1219_23_alg».proof.Proof.Steps
import proofs.«146803_g30416958390823_retrytranche2_1219_23_alg».proof.Proof.RunC

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a point `t ≥ 25` the second scratch buffer holds HW whole; the body's one store puts the result's rows of block
    `t - 25` into the output window's buffer and keeps its other rows; every other buffer is left as found. -/
theorem caseC (c : Dev nD) (t : Fin cfg0.N) (h2 : 25 ≤ t.val) (Y6 : Vec F S10000x40 .f32) :
    casePre m c t Y6 ⊢ wp frame (wpE (defs₀ (F := F)) Variants.none c none) Set.univ (bodyAt0 t) (fun _ => casePost m c t Y6) := by
  unfold casePre casePost bodyAt0
  rw [PhiS_pos m c t.val (by omega), PhiS_succ]
  have hc0 : ¬condFirst (grid0.coords t) := fun h => absurd ((condFirst_iff t).mp h) (by omega)
  have hc1 : ¬condPh0 (grid0.coords t) := fun h => absurd ((condPh0_iff t).mp h) (by omega)
  have hc2 : condPh1 (grid0.coords t) := (condPh1_iff t).mpr h2
  iintro ⟨⟨⟨HS0, ⟨%s1, %hup, HS1⟩⟩, Hg⟩, Ho, H0, H1, H2, H3, H4, H5, H6⟩
  obtain rfl := eq_HW_of_upto m c t.val h2 s1 hup
  iapply ((runC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (iblk m c 4 t) (iblk m c 5 t) Y6 (XW m c) (HW m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexists _
      isplitr
      swap
      · iexact HS1
      ipureintro
      exact upto_of_eq_HW m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr; swap
  · unfold owns; iexists _; isplitr; swap; · iexact H6
    ipureintro; rfl
  ipureintro
  rw [runC_pieces]
  exact out_step m c t h2 (ms6 t) (hs6 t) Y6 _

end Cert.KernelIdeal.Hand

end
-- ==== Proof.Body.lean ====
/-
  The body obligation of the relational proof data, at every point: the three cases put together.
-/
import proofs.«146803_g30416958390823_retrytranche2_1219_23_alg».proof.Proof.Gen.KernelIdeal.Skeleton
import proofs.«146803_g30416958390823_retrytranche2_1219_23_alg».proof.Proof.BodyA
import proofs.«146803_g30416958390823_retrytranche2_1219_23_alg».proof.Proof.BodyB
import proofs.«146803_g30416958390823_retrytranche2_1219_23_alg».proof.Proof.BodyC

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The body in the form the cases are proved in: whichever case the point is in. -/
theorem sound_case (c : Dev nD) (t : Fin cfg0.N) (Y6 : Vec F S10000x40 .f32) :
    casePre m c t Y6 ⊢ wp frame (wpE (defs₀ (F := F)) Variants.none c none) Set.univ (bodyAt0 t) (fun _ => casePost m c t Y6) := by
  by_cases h0 : t.val = 0
  · exact caseA m c t h0 Y6
  · by_cases h1 : t.val < 25
    · exact caseB m c t h0 h1 Y6
    · exact caseC m c t (by omega) Y6

/-- What the body is handed is the cases' precondition: an input window's buffer holds its block wherever the body is
    handed it. -/
theorem pre_case (c : Dev nD) (t : Fin cfg0.N) (Y : (w : Fin cfg0.W) → (cfg0.win w).block.Idx → Elt F (cfg0.win w).elt)
    (hY : ∀ w, (rd m c).Finds w t (Y w)) : bodyPre m c t Y ⊢ casePre m c t (Y 6) := by
  unfold bodyPre casePre
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5), rd_Phi, Fin.coe_castSucc]

/-- The cases' postcondition is what the body must hand back. -/
theorem case_post (c : Dev nD) (t : Fin cfg0.N) (Y : (w : Fin cfg0.W) → (cfg0.win w).block.Idx → Elt F (cfg0.win w).elt)
    (hY : ∀ w, (rd m c).Finds w t (Y w)) : casePost m c t (Y 6) ⊢ bodyPost m c t Y := by
  unfold bodyPost casePost
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5), rd_Phi, Fin.val_succ]
  rw [show (rd m c).owesAt () t.succ = (rd m c).owesAt () t.castSucc from rfl]
  iintro ⟨HP, Ho, H0, H1, H2, H3, H4, H5, ⟨%X, %hX, H6⟩⟩
  isplitl [HP]; · iexact HP
  isplitl [Ho]; · iexact Ho
  isplitl [H0]
  · iexists _; isplitr; swap; · iexact H0
    ipureintro; exact (rd_after_0 m c t _ _).mpr rfl
  isplitl [H1]
  · iexists _; isplitr; swap; · iexact H1
    ipureintro; exact (rd_after_1 m c t _ _).mpr rfl
  isplitl [H2]
  · iexists _; isplitr; swap; · iexact H2
    ipureintro; exact (rd_after_2 m c t _ _).mpr rfl
  isplitl [H3]
  · iexists _; isplitr; swap; · iexact H3
    ipureintro; exact (rd_after_3 m c t _ _).mpr rfl
  isplitl [H4]
  · iexists _; isplitr; swap; · iexact H4
    ipureintro; exact (rd_after_4 m c t _ _).mpr rfl
  isplitl [H5]
  · iexists _; isplitr; swap; · iexact H5
    ipureintro; exact (rd_after_5 m c t _ _).mpr rfl
  iexists X; isplitr; swap; · iexact H6
  ipureintro; exact (rd_after_6 m c t _ _).mpr hX

/-- The body at any point, on whatever the windows' buffers may hold there. -/
theorem sound_body (c : Dev nD) (t : Fin cfg0.N) (Y : (w : Fin cfg0.W) → (cfg0.win w).block.Idx → Elt F (cfg0.win w).elt)
    (hY : ∀ w, (rd m c).Finds w t (Y w)) :
    bodyPre m c t Y ⊢ wp frame (wpE (defs₀ (F := F)) Variants.none c none) Set.univ (bodyAt0 t) (fun _ => bodyPost m c t Y) :=
  (pre_case m c t Y hY).trans ((sound_case m c t (Y 6)).trans
    (wp_mono frame (wpE (defs₀ (F := F)) Variants.none c none) Set.univ fun _ => case_post m c t Y hY))

/-- The library's body obligation for the relational proof data, at every point. -/
theorem body_obligation (c : Dev nD) : (rd (F := F) m c).BodyObligation (defs₀ (F := F)) Variants.none () Set.univ := fun t Y hY => by
  rw [bigSep_W0, bigSep_W0]
  exact sound_body m c t Y hY

end Cert.KernelIdeal.Hand

end
-- ==== Proof.Final.lean ====
/-
  After the run the output array holds the result.

  The output window's staging buffer is written row block by row block over the second phase: after point t ≥ 25 its
  rows below 400 (t - 24) are the result's. After the last point every row is. The output array is written back once,
  after the last point, through a block that is the whole array, so what it then holds is the staging buffer's contents.
-/
import proofs.«146803_g30416958390823_retrytranche2_1219_23_alg».proof.Proof.Data
import Idealize.ShloMosaic.Lib.Pipeline.Cells

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The output window is never fetched, and written back only after the last point -/

theorem fetch6 (t : Fin cfg0.N) : (cfg0.win 6).fetch t = false := by
  have h : (cfg0.win 6).isOut = true := rfl
  unfold Pipeline.Window.fetch
  rw [h]; rfl

theorem flush6_false (t : Fin cfg0.N) (ht : t.val ≠ 49) : ¬ (cfg0.win 6).flush t = true := by
  intro hfl
  have hN : cfg0.N = 50 := N_0
  have h1 := (flush0_6 t).mp hfl
  have h2 : t.val < cfg0.N := t.isLt
  omega

/-! ## The staging buffer's invariant over the second phase -/

theorem leaves6_inv (c : Dev nD) : ∀ (n : ℕ) (t : Fin cfg0.N), t.val = n → 25 ≤ n →
    ∀ X : Vec F S10000x40 .f32, (rd m c).Leaves 6 t X →
      ∀ y : S10000x40.Idx, (y 0).val < 400 * (n - 24) → X y = LS m c y := by
  intro n
  induction n with
  | zero => intro t _ h; omega
  | succ k ih =>
    intro t ht h25 X hX y hy
    obtain ⟨Y, hY, hA⟩ := hX
    rw [rd_after_6] at hA
    unfold OutStep at hA
    rw [if_pos (by omega)] at hA
    obtain ⟨h1, h2⟩ := hA
    by_cases hin : 400 * (t.val - 25) ≤ (y 0).val
    · exact h1 y hin (by omega)
    · have hlt : (y 0).val < 400 * (t.val - 25) := by omega
      rw [h2 y (Or.inl hlt)]
      have ht25 : 25 < t.val := by omega
      rw [(rd m c).finds_of_pos (fetch6 t) (by omega)] at hY
      rcases hY with hfl | hL
      · exact absurd hfl (flush6_false _ (by show t.val - 1 ≠ 49; have := t.isLt; have hN : cfg0.N = 50 := N_0; omega))
      · exact ih ⟨t.val - 1, Nat.lt_of_le_of_lt (Nat.sub_le _ _) t.isLt⟩ (by show t.val - 1 = k; omega) (by omega) Y hL y (by omega)

/-- After the last point the staging buffer holds the result. -/
theorem leaves6_last (c : Dev nD) (t : Fin cfg0.N) (ht : t.val = 49) (X : Vec F S10000x40 .f32)
    (hX : (rd m c).Leaves 6 t X) : X = LS m c := by
  funext y
  have hy : (y 0).val < 10000 := (y 0).isLt
  exact leaves6_inv m c 49 t ht (by omega) X hX y (by omega)

/-! ## The output array: entry contents until the one write-back -/

theorem lt49 : 49 < cfg0.N := by have h : cfg0.N = 50 := N_0; omega

/-- The last point. -/
abbrev t49 : Fin cfg0.N := ⟨49, lt49⟩

theorem arrAt6_low (c : Dev nD) : ∀ n, n ≤ 49 → (rd m c).ArrAt 6 n = fun G => G = (rd m c).A 6
  | 0, _ => rfl
  | n + 1, h => by
    have hN : cfg0.N = 50 := N_0
    have e := (rd m c).ArrAt_succ 6 ⟨n, by omega⟩
    dsimp only at e
    rw [e, if_neg (flush6_false _ (by show n ≠ 49; omega)), arrAt6_low c n (by omega)]

theorem arrAt6_last (c : Dev nD) (Fb : Buf (Elt F) ((cfg0.win 6).arr.view.loc (c.tc : Thread nD τ)))
    (h : (rd m c).ArrAt 6 cfg0.N Fb) :
    ∃ (G₀ : Buf (Elt F) ((cfg0.win 6).arr.view.loc (c.tc : Thread nD τ))) (X : Vec F S10000x40 .f32),
      (rd m c).Leaves 6 t49 X ∧
      Fb = ((cfg0.win 6).blk t49).view.write (Elt F) G₀ ((cfg0.win 6).cut (cfg0.grid.coords t49) X) Finset.univ := by
  have hN : cfg0.N = 50 := N_0
  rw [hN] at h
  have e : (rd m c).ArrAt 6 50 = _ := (rd m c).ArrAt_succ 6 t49
  rw [e, if_pos ((flush0_6 _).mpr rfl)] at h
  obtain ⟨G₀, X, _, hX, hF⟩ := h
  exact ⟨G₀, X, hX, hF⟩

/-! ## The output window's block is the whole array -/

theorem emb6_val (y : ((cfg0.win 6).xblock (cfg0.grid.coords t49)).Idx) (a : Fin (cfg0.win 6).shape.rank) :
    ((((cfg0.win 6).blk t49).view.emb y) a : Nat) = (y a : Nat) := by
  have h0 : (cfg0.win 6).index t49 a = 0 := by
    show (![(0#32 : BitVec 32).toNat, (0#32 : BitVec 32).toNat] : Fin 2 → Nat) a = 0
    fin_cases a <;> rfl
  show ((((cfg0.win 6).rect t49).emb y) a : Nat) = (y a : Nat)
  rw [Rect.emb_apply]
  show (cfg0.win 6).index t49 a * (cfg0.win 6).size a + 1 * (y a : Nat) = (y a : Nat)
  rw [h0]; omega

theorem write6 (c : Dev nD) (G₀ : Buf (Elt F) ((cfg0.win 6).arr.view.loc (c.tc : Thread nD τ))) (X : Vec F S10000x40 .f32)
    (y : S10000x40.Idx) :
    ((cfg0.win 6).blk t49).view.write (Elt F) G₀ ((cfg0.win 6).cut (cfg0.grid.coords t49) X) Finset.univ y = X y := by
  have he : ((cfg0.win 6).blk t49).view.emb y = y := funext fun a => Fin.ext (emb6_val y a)
  have hw := View.write_emb_of_mem (v := ((cfg0.win 6).blk t49).view) G₀ ((cfg0.win 6).cut (cfg0.grid.coords t49) X) (Finset.mem_univ y)
  rw [he] at hw
  rw [hw]
  rfl

/-! ## After the run the output array holds the result -/

theorem arr_final (c : Dev nD) (Fb : Buf (Elt F) ((cfg0.win 6).arr.view.loc (c.tc : Thread nD τ)))
    (h : (rd m c).ArrAt 6 cfg0.N Fb) : Fb = LS m c := by
  obtain ⟨G₀, X, hX, hF⟩ := arrAt6_last m c Fb h
  have hXe : X = LS m c := leaves6_last m c t49 rfl X hX
  rw [hF, hXe]
  funext y
  exact write6 c G₀ (LS m c) y

end Cert.KernelIdeal.Hand

end
-- ==== Proof.Launch.lean ====
/-
  The run of @main over the relational proof data, and what it leaves: the argument arrays unchanged and the result
  array at the kernel's function `LS` of the launched arrays.
-/
import proofs.«146803_g30416958390823_retrytranche2_1219_23_alg».proof.Proof.Gen.KernelIdeal.Skeleton
import proofs.«146803_g30416958390823_retrytranche2_1219_23_alg».proof.Proof.Body
import proofs.«146803_g30416958390823_retrytranche2_1219_23_alg».proof.Proof.Final

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region (every scratch at anything) is the invariant before the first point. -/
theorem hin (c : Dev nD) : Pipeline.ΦA spec0 c ⊢ (rd m c).Φ 0 := by
  rw [rd_Phi]; exact .rfl

/-- After the last point the invariant gives that back: what the scratch buffers hold is forgotten. -/
theorem hout (c : Dev nD) : (rd m c).Φ (Fin.last cfg0.N) ⊢ Pipeline.ΦA spec0 c := by
  rw [rd_Phi, Fin.val_last, PhiS_pos m c _ (by have : cfg0.N = 50 := N_0; omega), PhiA_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
/-- Every weakly fair execution of @main terminates, and every final state has every array of the pipeline at some
    contents the relational data allow after every write-back, every other unscoped buffer at its region-entry contents. -/
theorem run_main : θ_run defs (onTc (τ := τ) (main (F := F))) (s₀ m ρ) (Pipeline.RDat.FramePost (cfgs 0) (fun c => rd m c) (V m)) :=
  Pipeline.RDat.θ_run_frame_track cfgs (0 : Fin 1) launch0 defs₀ Variants.none (fun c => rd m c) m ρ main
    (hbody := fun c => body_obligation m c) (hshare := fun c => (rd m c).share_full fun _ => rfl)
    (howed := fun _ _ => rfl) (V := V m) (hmain := hmain m Variants.none) (hA := rd_A m) (hin := hin m) (hout := hout m)

/-- The run, read at the result and the arguments: the result array ends at `LS` of the launched arrays — the one
    write-back, after the last point, writes a staging buffer whose every block of rows the second phase has stored —,
    an input array of the pipeline as launched (it is never written), the two arrays no window stages as the region found
    them, which is as launched. -/
theorem run_value : θ_run defs (onTc (τ := τ) (main (F := F))) ⟨m, fun _ => 0, ρ⟩ (fun r => ∀ c : Dev nD,
      r.2.mem ((c.tc : Thread nD τ).loc main_v2) = LS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨arr_final m c _ ((h c).1 6),
      (Pipeline.RDat.FramePost.arr_in h c 1 rfl).trans ((rd_A m c 1).trans (V_main_arg0 m c)),
      (Pipeline.RDat.FramePost.arr_in h c 0 rfl).trans ((rd_A m c 0).trans (V_main_arg1 m c)),
      (Pipeline.RDat.FramePost.arr_in h c 2 rfl).trans ((rd_A m c 2).trans (V_main_arg2 m c)),
      ((h c).2 main_arg3 (Pipeline.mem_restRefs_of main_arg3 (by decide) (by decide))).trans (V_main_arg3 m c),
      (Pipeline.RDat.FramePost.arr_in h c 4 rfl).trans ((rd_A m c 4).trans (V_main_arg4 m c)),
      ((h c).2 main_arg5 (Pipeline.mem_restRefs_of main_arg5 (by decide) (by decide))).trans (V_main_arg5 m c)⟩) (run_main m ρ)

/-- The frame: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.ValueHW.lean ====
/-
  The first phase of the kernel against the reference, at the extended reals.

  `x · W1`, which the kernel forms once as a product accumulated into a zero array, is the reference's product.
  `relu(adj₀ · (x · W1) + b1) · W2`, which the kernel forms block of 400 rows by block, is the reference's array:
  at row `r = 400 (r / 400) + r % 400` and column `q` both are
  `∑ k < 64, max (∑ l < 10000, adj₀(r, l) · (x · W1)(l, k) + b1(k)) 0 · W2(k, q)`,
  with the same association of every sum.
-/
import proofs.«146803_g30416958390823_retrytranche2_1219_23_alg».proof.Proof.Spec
import proofs.«146803_g30416958390823_retrytranche2_1219_23_alg».proof.Proof.RefRead
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- The two programs' records for the product `x · W1` have the same fields. -/
theorem dot_xw_eq : Cert.KernelIdeal.dot_S10000x128_S128x64_S10000x64_1_0_0_1_n_n
    = Cert.ReferenceIdeal.dot_S10000x128_S128x64_S10000x64_1_0_0_1_n_n := rfl

/-- `x · W1` accumulated into a zero array is the reference's product. -/
theorem xw_eq (x : Vec Ideal S10000x128 .f32) (w1 : Vec Ideal S128x64 .f32) :
    xw (F := Ideal) x w1 = Cert.ReferenceIdeal.ReadP.val_main_v2 (F := Ideal) x w1 := by
  unfold xw k0_pay1 Cert.ReferenceIdeal.ReadP.val_main_v2
  dsimp only
  rw [shapeCast_self, matmul_zero_eq_dotGeneral, dot_xw_eq]

/-! ## The block's two products read at an index -/

theorem lhs_adj_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_adj_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_adj_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_adj_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- A block of 400 adjacency rows times a `10000 × 64` array, into a zero array: the plain sum over the 10000 columns. -/
theorem matmul_adj_apply (a : FVec Ideal S400x10000 .f32) (z : FVec Ideal S10000x64 .f32) (p : Fin 400) (c : Fin 64) :
    matmul dot_S400x10000_S10000x64_S400x64_1_0_0_1_n_n none a z (constant (F := Ideal) S400x64 .f32 0x00000000#32) (ix2 p c)
      = ∑ l : Fin 10000, a (ix2 p l) * z (ix2 l c) := by
  show FloatOps.matmul dot_S400x10000_S10000x64_S400x64_1_0_0_1_n_n none a z (constant (F := Ideal) S400x64 .f32 0x00000000#32) (ix2 p c) = _
  rw [Ideal.matmul_constant_zero_apply, ← Equiv.sum_comp (contrEquiv1 dot_S400x10000_S10000x64_S400x64_1_0_0_1_n_n 10000 rfl rfl).symm]
  refine Finset.sum_congr rfl fun l _ => ?_
  have hk := contrEquiv1_symm_val dot_S400x10000_S10000x64_S400x64_1_0_0_1_n_n 10000 rfl rfl l
  have el : dot_S400x10000_S10000x64_S400x64_1_0_0_1_n_n.lhsIdx (ix2 p c) ((contrEquiv1 dot_S400x10000_S10000x64_S400x64_1_0_0_1_n_n 10000 rfl rfl).symm l) = ix2 p l := funext fun b => Fin.ext (by
    match b with
    | ⟨0, _⟩ => exact lhs_adj_0 _ _
    | ⟨1, _⟩ => exact (lhs_adj_1 _ _).trans hk)
  have er : dot_S400x10000_S10000x64_S400x64_1_0_0_1_n_n.rhsIdx (ix2 p c) ((contrEquiv1 dot_S400x10000_S10000x64_S400x64_1_0_0_1_n_n 10000 rfl rfl).symm l) = ix2 l c := funext fun b => Fin.ext (by
    match b with
    | ⟨0, _⟩ => exact (rhs_adj_0 _ _).trans hk
    | ⟨1, _⟩ => exact rhs_adj_1 _ _)
  rw [el, er]

theorem lhs_w2_0 (i : S400x40.Idx) (q : dot_S400x64_S64x40_S400x40_1_0_0_1_n_n.contr.Idx) :
    (dot_S400x64_S64x40_S400x40_1_0_0_1_n_n.lhsIdx i q 0).val = (i 0).val := by
  unfold DotDims.lhsIdx
  rw [dif_neg (show ¬(0 : Fin S400x64.rank) ∈ dot_S400x64_S64x40_S400x40_1_0_0_1_n_n.lhsBatch by decide), dif_pos (show (0 : Fin S400x64.rank) ∈ dot_S400x64_S64x40_S400x40_1_0_0_1_n_n.lhsNonContracting by decide)]
  rfl
theorem lhs_w2_1 (i : S400x40.Idx) (q : dot_S400x64_S64x40_S400x40_1_0_0_1_n_n.contr.Idx) :
    (dot_S400x64_S64x40_S400x40_1_0_0_1_n_n.lhsIdx i q 1).val = (q ⟨0, by decide⟩).val :=
  dot_S400x64_S64x40_S400x40_1_0_0_1_n_n.lhsIdx_val_of_single rfl i q
theorem rhs_w2_0 (i : S400x40.Idx) (q : dot_S400x64_S64x40_S400x40_1_0_0_1_n_n.contr.Idx) :
    (dot_S400x64_S64x40_S400x40_1_0_0_1_n_n.rhsIdx i q 0).val = (q ⟨0, by decide⟩).val :=
  dot_S400x64_S64x40_S400x40_1_0_0_1_n_n.rhsIdx_val_of_single rfl i q
theorem rhs_w2_1 (i : S400x40.Idx) (q : dot_S400x64_S64x40_S400x40_1_0_0_1_n_n.contr.Idx) :
    (dot_S400x64_S64x40_S400x40_1_0_0_1_n_n.rhsIdx i q 1).val = (i 1).val := by
  unfold DotDims.rhsIdx
  rw [dif_neg (show ¬(1 : Fin S64x40.rank) ∈ dot_S400x64_S64x40_S400x40_1_0_0_1_n_n.rhsBatch by decide), dif_pos (show (1 : Fin S64x40.rank) ∈ dot_S400x64_S64x40_S400x40_1_0_0_1_n_n.rhsNonContracting by decide)]
  rfl

/-- A `400 × 64` block times `W2`, into a zero array: the plain sum over the 64 hidden units. -/
theorem matmul_w2_apply (a : FVec Ideal S400x64 .f32) (z : FVec Ideal S64x40 .f32) (p : Fin 400) (c : Fin 40) :
    matmul dot_S400x64_S64x40_S400x40_1_0_0_1_n_n none a z (constant (F := Ideal) S400x40 .f32 0x00000000#32) (ix2 p c)
      = ∑ l : Fin 64, a (ix2 p l) * z (ix2 l c) := by
  show FloatOps.matmul dot_S400x64_S64x40_S400x40_1_0_0_1_n_n none a z (constant (F := Ideal) S400x40 .f32 0x00000000#32) (ix2 p c) = _
  rw [Ideal.matmul_constant_zero_apply, ← Equiv.sum_comp (contrEquiv1 dot_S400x64_S64x40_S400x40_1_0_0_1_n_n 64 rfl rfl).symm]
  refine Finset.sum_congr rfl fun l _ => ?_
  have hk := contrEquiv1_symm_val dot_S400x64_S64x40_S400x40_1_0_0_1_n_n 64 rfl rfl l
  have el : dot_S400x64_S64x40_S400x40_1_0_0_1_n_n.lhsIdx (ix2 p c) ((contrEquiv1 dot_S400x64_S64x40_S400x40_1_0_0_1_n_n 64 rfl rfl).symm l) = ix2 p l := funext fun b => Fin.ext (by
    match b with
    | ⟨0, _⟩ => exact lhs_w2_0 _ _
    | ⟨1, _⟩ => exact (lhs_w2_1 _ _).trans hk)
  have er : dot_S400x64_S64x40_S400x40_1_0_0_1_n_n.rhsIdx (ix2 p c) ((contrEquiv1 dot_S400x64_S64x40_S400x40_1_0_0_1_n_n 64 rfl rfl).symm l) = ix2 l c := funext fun b => Fin.ext (by
    match b with
    | ⟨0, _⟩ => exact (rhs_w2_0 _ _).trans hk
    | ⟨1, _⟩ => exact rhs_w2_1 _ _)
  rw [el, er]

/-! ## One block of 400 rows read at an index -/

/-- The word of the f32 zero is the extended real zero. -/
theorem zero_word : (Scalar.ofBits .f32 0x00000000#32 : Ideal .f32) = 0 := Ideal.ofBits_zero_f32

/-- One block of 400 rows of `relu(a · z + b1) · W2`, read at row `p` and column `q`. -/
theorem k0_pay2_apply (a : Vec Ideal S1x400x10000 .f32) (z : Vec Ideal S10000x64 .f32) (b1r : Vec Ideal S1x64 .f32)
    (w2 : Vec Ideal S64x40 .f32) (p : Fin 400) (q : Fin 40) :
    k0_pay2 (F := Ideal) a z b1r w2 (ix2 p q)
      = ∑ k : Fin 64, max ((∑ l : Fin 10000, a (ix3 (0 : Fin 1) p l) * z (ix2 l k)) + b1r (ix2 (0 : Fin 1) k)) 0
          * w2 (ix2 k q) := by
  unfold k0_pay2
  rw [shapeCast_self]
  refine (matmul_w2_apply _ _ p q).trans ?_
  refine Finset.sum_congr rfl fun k _ => ?_
  rw [maximumf_apply, addf_apply, broadcast_apply, zero_word, shapeCast_self, broadcastTo_1b_ab_apply]
  refine congrArg (fun t => max (t + b1r (ix2 (0 : Fin 1) k)) 0 * w2 (ix2 k q)) ?_
  refine (matmul_adj_apply _ _ p k).trans ?_
  refine Finset.sum_congr rfl fun l _ => ?_
  rw [shapeCast_1ab_ab_apply]

/-! ## The reference's `relu(adj₀ · (x · W1) + b1) · W2` read at an index -/

open Cert.ReferenceIdeal.ReadP in
/-- The reference's value at row `r` and column `q`: the sum over the 64 hidden units of the rectified row sum
    times `W2`, the row sum running over the 10000 columns of layer 0 of the adjacency stack. -/
theorem ref_hw_apply (x : Vec Ideal S10000x128 .f32) (adj : Vec Ideal S2x10000x10000 .f32) (w1 : Vec Ideal S128x64 .f32)
    (b1 : Vec Ideal S64 .f32) (w2 : Vec Ideal S64x40 .f32) (r : Fin 10000) (q : Fin 40) :
    val_main_v10 (F := Ideal) x adj w1 b1 w2 (ix2 r q)
      = ∑ k : Fin 64, max ((∑ l : Fin 10000, adj (ix3 (0 : Fin 2) r l) * val_main_v2 (F := Ideal) x w1 (ix2 l k)) + b1 (ix1 k)) 0
          * w2 (ix2 k q) := by
  rw [val_main_v10_apply]
  refine Finset.sum_congr rfl fun k _ => ?_
  have e1 : lidx_main_v10 (ix2 r q) k = ix2 r k :=
    funext fun a => Fin.ext (by match a with | ⟨0, _⟩ => rfl | ⟨1, _⟩ => rfl)
  have e2 : ridx_main_v10 (ix2 r q) k = ix2 k q :=
    funext fun a => Fin.ext (by match a with | ⟨0, _⟩ => rfl | ⟨1, _⟩ => rfl)
  have e3 : idx_main_v4 (idx_main_v5 (ix2 r k)) = ix1 k :=
    funext fun a => Fin.ext (by match a with | ⟨0, _⟩ => rfl)
  rw [e1, e2, val_main_v7_apply, val_main_v6_apply, val_main_v3_apply, val_main_v5_apply, val_main_v4_apply, e3,
    val_main_call0_v0_apply, val_main_call0_cst_apply, Ideal.maximumf_def, Ideal.addf_def, Ideal.ofBits_def,
    Ideal.ofBits_zero_f32]
  refine congrArg (fun t => max (t + b1 (ix1 k)) 0 * w2 (ix2 k q)) ?_
  refine Finset.sum_congr rfl fun l _ => ?_
  have e4 : ridx_main_v3 (ix2 r k) l = ix2 l k :=
    funext fun a => Fin.ext (by match a with | ⟨0, _⟩ => rfl | ⟨1, _⟩ => rfl)
  have e5 : idx_main_v0 (idx_main_v1 (lidx_main_v3 (ix2 r k) l)) = ix3 (0 : Fin 2) r l :=
    funext fun a => Fin.ext (by
      have hr : r.val < 10000 := r.isLt
      have hl : l.val < 10000 := l.isLt
      match a with
      | ⟨0, _⟩ => rfl
      | ⟨1, _⟩ => show (r.val * 10000 + l.val) / 10000 % 10000 = r.val; omega
      | ⟨2, _⟩ => show (r.val * 10000 + l.val) % 10000 = l.val; omega)
  rw [e4, val_main_v1_apply, val_main_v0_apply, e5]

/-! ## The blocks pasted together are the reference's array -/

/-- `relu(adj₀ · (x · W1) + b1) · W2`, formed block of 400 rows by block, is the reference's array. -/
theorem hw_eq (x : Vec Ideal S10000x128 .f32) (adj : Vec Ideal S2x10000x10000 .f32) (w1 : Vec Ideal S128x64 .f32)
    (b1 : Vec Ideal S64 .f32) (b1r : Vec Ideal S1x64 .f32) (w2 : Vec Ideal S64x40 .f32)
    (hb1 : ∀ j : Fin 64, b1r (ix2 (0 : Fin 1) j) = b1 (ix1 j)) :
    hw (F := Ideal) x adj w1 b1r w2 = Cert.ReferenceIdeal.ReadP.val_main_v10 (F := Ideal) x adj w1 b1 w2 := by
  funext y
  obtain ⟨r, q, rfl⟩ : ∃ (r : Fin 10000) (q : Fin 40), y = ix2 r q := ⟨y 0, y 1, eq_ix2 y⟩
  rw [ref_hw_apply]
  unfold hw hwRows rowLoc
  rw [xw_eq]
  generalize Cert.ReferenceIdeal.ReadP.val_main_v2 (F := Ideal) x w1 = z
  refine (k0_pay2_apply _ z b1r w2 _ _).trans ?_
  refine Finset.sum_congr rfl fun k _ => ?_
  rw [hb1 k]
  refine congrArg (fun t => max (t + b1 (ix1 k)) 0 * w2 (ix2 k q)) ?_
  refine Finset.sum_congr rfl fun l _ => ?_
  refine congrArg (· * z (ix2 l k)) ?_
  unfold adjRows rowBlk
  refine congrArg adj (funext fun a => Fin.ext ?_)
  match a with
  | ⟨0, _⟩ => rfl
  | ⟨1, _⟩ => show 400 * (r.val / 400) + r.val % 400 = r.val; omega
  | ⟨2, _⟩ => rfl

end Cert.KernelIdeal.Hand

end
-- ==== Proof.ValueLS.lean ====
/-
  The kernel's second phase against the reference's log-softmax, at the ideal values.

  With H the hidden product (10000 × 40) and logits(r, j) = ∑ l, adj(1, r, l) · H(l, j) + b2(j), both programs form, at (r, j),
    s(r, j) − log (∑ j', exp (s(r, j'))),   s(r, j) = logits(r, j) − max over j' of logits(r, j'),
  the kernel block of 400 rows by block, the reference on whole arrays. Each side's product is the plain sum over the
  contracted axis, the row maximum the fold of max from −∞ over the 40 columns, the row sum the plain sum over them; the
  reference's extra maximum with −∞ and its initial 0 of the sum change nothing on the extended reals.
-/
import proofs.«146803_g30416958390823_retrytranche2_1219_23_alg».proof.Proof.Spec
import proofs.«146803_g30416958390823_retrytranche2_1219_23_alg».proof.Proof.RefRead
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Hand

open Idealize.ShloMosaic Idealize.ShloMosaic.ValueIdx Cert.KernelIdeal Cert.KernelIdeal.Gen

/-! ## The block's product with the hidden array, read at an index -/

theorem lhs_ls_0 (i : S400x40.Idx) (q : dot_S400x10000_S10000x40_S400x40_1_0_0_1_n_n.contr.Idx) :
    (dot_S400x10000_S10000x40_S400x40_1_0_0_1_n_n.lhsIdx i q 0).val = (i 0).val := by
  unfold DotDims.lhsIdx
  rw [dif_neg (show ¬(0 : Fin S400x10000.rank) ∈ dot_S400x10000_S10000x40_S400x40_1_0_0_1_n_n.lhsBatch by decide), dif_pos (show (0 : Fin S400x10000.rank) ∈ dot_S400x10000_S10000x40_S400x40_1_0_0_1_n_n.lhsNonContracting by decide)]
  rfl
theorem lhs_ls_1 (i : S400x40.Idx) (q : dot_S400x10000_S10000x40_S400x40_1_0_0_1_n_n.contr.Idx) :
    (dot_S400x10000_S10000x40_S400x40_1_0_0_1_n_n.lhsIdx i q 1).val = (q ⟨0, by decide⟩).val :=
  dot_S400x10000_S10000x40_S400x40_1_0_0_1_n_n.lhsIdx_val_of_single rfl i q
theorem rhs_ls_0 (i : S400x40.Idx) (q : dot_S400x10000_S10000x40_S400x40_1_0_0_1_n_n.contr.Idx) :
    (dot_S400x10000_S10000x40_S400x40_1_0_0_1_n_n.rhsIdx i q 0).val = (q ⟨0, by decide⟩).val :=
  dot_S400x10000_S10000x40_S400x40_1_0_0_1_n_n.rhsIdx_val_of_single rfl i q
theorem rhs_ls_1 (i : S400x40.Idx) (q : dot_S400x10000_S10000x40_S400x40_1_0_0_1_n_n.contr.Idx) :
    (dot_S400x10000_S10000x40_S400x40_1_0_0_1_n_n.rhsIdx i q 1).val = (i 1).val := by
  unfold DotDims.rhsIdx
  rw [dif_neg (show ¬(1 : Fin S10000x40.rank) ∈ dot_S400x10000_S10000x40_S400x40_1_0_0_1_n_n.rhsBatch by decide), dif_pos (show (1 : Fin S10000x40.rank) ∈ dot_S400x10000_S10000x40_S400x40_1_0_0_1_n_n.rhsNonContracting by decide)]
  rfl

/-- The 400 × 10000 block times the 10000 × 40 array into the zero accumulator, at (p, q): the sum over the 10000 columns. -/
theorem mm_ls_apply (a2 : FVec Ideal S400x10000 .f32) (Hh : FVec Ideal S10000x40 .f32) (p : Fin 400) (q : Fin 40) :
    matmul dot_S400x10000_S10000x40_S400x40_1_0_0_1_n_n none a2 Hh (constant (F := Ideal) S400x40 .f32 0x00000000#32) (ix2 p q)
      = ∑ l : Fin 10000, a2 (ix2 p l) * Hh (ix2 l q) := by
  simp only [matmul]
  rw [Ideal.matmul_constant_zero_apply, ← Equiv.sum_comp (contrEquiv1 dot_S400x10000_S10000x40_S400x40_1_0_0_1_n_n 10000 rfl rfl).symm]
  refine Finset.sum_congr rfl fun k _ => ?_
  have hk := contrEquiv1_symm_val dot_S400x10000_S10000x40_S400x40_1_0_0_1_n_n 10000 rfl rfl k
  have el : dot_S400x10000_S10000x40_S400x40_1_0_0_1_n_n.lhsIdx (ix2 p q) ((contrEquiv1 dot_S400x10000_S10000x40_S400x40_1_0_0_1_n_n 10000 rfl rfl).symm k) = ix2 p k := funext fun a => Fin.ext (by
    match a with
    | ⟨0, _⟩ => exact lhs_ls_0 _ _
    | ⟨1, _⟩ => exact (lhs_ls_1 _ _).trans hk)
  have er : dot_S400x10000_S10000x40_S400x40_1_0_0_1_n_n.rhsIdx (ix2 p q) ((contrEquiv1 dot_S400x10000_S10000x40_S400x40_1_0_0_1_n_n 10000 rfl rfl).symm k) = ix2 k q := funext fun a => Fin.ext (by
    match a with
    | ⟨0, _⟩ => exact (rhs_ls_0 _ _).trans hk
    | ⟨1, _⟩ => exact rhs_ls_1 _ _)
  rw [el, er]

/-! ## The column forms of the layout operations, the lifted index of a row, and the two constants -/

/-- The reduced index p with column k put back is (p, k). -/
theorem lift_row (h : S400x40.Reduces [1] S400) (p : Fin 400) (k : Fin (S400x40.size 1)) :
    h.lift (ix1 p) k = ix2 p (⟨k.val, k.isLt⟩ : Fin 40) := by
  funext c; apply Fin.ext
  fin_cases c <;> rfl

/-- A vector of 400 entries cast to one column reads, at (p, 0), entry p. -/
theorem shapeCast_col_apply {α : Type} (x : S400.Idx → α) (h : S400.ShapeCasts S400x1) (p : Fin 400) (z : Fin 1) :
    shapeCast S400x1 x h (ix2 p z) = x (ix1 p) :=
  shapeCast_apply x h _ _ (by
    rw [Shape.rowMajor_val_one, Shape.rowMajor_val_two]
    show p.val = p.val * 1 + z.val
    have := z.isLt
    omega)

/-- One column broadcast over 40 reads, at (p, q), the column's entry p. -/
theorem broadcastTo_col_apply {α : Type} (v : S400x1.Idx → α) (h : S400x1.Broadcasts S400x40) (p : Fin 400) (q : Fin 40) :
    broadcastTo S400x40 v h (ix2 p q) = v (ix2 p (0 : Fin 1)) := by
  refine broadcastTo_apply v h (ix2 p q) (ix2 p (0 : Fin 1)) fun ax => ?_
  match ax with
  | ⟨0, _⟩ =>
    show p.val = if (400 : Nat) = 1 then 0 else p.val
    rw [if_neg (by decide)]
  | ⟨1, _⟩ =>
    show 0 = if (1 : Nat) = 1 then 0 else q.val
    rw [if_pos rfl]

/-- The pattern of −∞ is the bottom of the extended reals. -/
theorem ofBits_neg_inf_f32 : Ideal.ofBits .f32 0xFF800000#32 = ⊥ := by simp [Ideal.ofBits, Ideal.ieee]

/-! ## One row's log-softmax, and the block's stored value read at an index -/

/-- A row's maximum: the fold of max from −∞ over the 40 columns. -/
def rowMax (L : Fin 40 → EReal) : EReal :=
  (Finset.univ : Finset (Fin 40)).fold max (Ideal.ofBits .f32 0xFF800000#32) L

/-- A row's log-softmax at column q: the row less its maximum, less the logarithm of the sum of the exponentials of that. -/
def lsRow (L : Fin 40 → EReal) (q : Fin 40) : EReal :=
  (L q - rowMax L) - Ideal.log (∑ j : Fin 40, Ideal.exp (L j - rowMax L))

/-- The maximum-reduction over the columns from −∞, at row p, is the row's maximum. -/
theorem rowMax_read (v : FVec Ideal S400x40 .f32) (h : S400x40.Reduces [1] S400) (hφ : FKind.Formats .f32)
    (hacc : (0xFF800000#32 : BitVec 32) = FKind.maximumf.neutral .f32 hφ) (p : Fin 400) :
    multiReduction (F := Ideal) .maximumf [1] S400 v 0xFF800000#32 h hφ hacc (ix1 p) = rowMax fun j => v (ix2 p j) := by
  refine (Ideal.multiReduction_maximumf_single v 0xFF800000#32 h hφ hacc (ix1 p)).trans ?_
  have hf : (v ∘ h.lift (ix1 p)) = fun k : Fin 40 => v (ix2 p k) := funext fun k => congrArg v (lift_row h p k)
  unfold rowMax
  exact congrArg (fun f => Finset.fold max (Ideal.ofBits .f32 0xFF800000#32) f (Finset.univ : Finset (Fin 40))) hf

/-- The add-reduction over the columns, at row p, is the row's sum. -/
theorem rowSum_read (v : FVec Ideal S400x40 .f32) (h : S400x40.Reduces [1] S400) (hφ : FKind.Formats .f32)
    (hacc : (0x00000000#32 : BitVec 32) = FKind.add.neutral .f32 hφ) (p : Fin 400) :
    multiReduction (F := Ideal) .add [1] S400 v 0x00000000#32 h hφ hacc (ix1 p) = ∑ j : Fin 40, v (ix2 p j) := by
  refine (Ideal.multiReduction_add_single v 0x00000000#32 h hφ hacc (ix1 p)).trans ?_
  exact Finset.sum_congr rfl fun k _ => congrArg v (lift_row h p k)

/-- The block's row maxima. -/
def blkMax (v : FVec Ideal S400x40 .f32) : FVec Ideal S400 .f32 :=
  multiReduction .maximumf [1] S400 v 0xFF800000#32 reduces_S400x40_S400 (.inl rfl) rfl

theorem blkMax_apply (v : FVec Ideal S400x40 .f32) (p : Fin 400) :
    blkMax v (ix1 p) = rowMax fun j => v (ix2 p j) := by
  unfold blkMax
  exact rowMax_read v _ _ _ p

/-- The block less its row maxima. -/
def blkShift (v : FVec Ideal S400x40 .f32) : FVec Ideal S400x40 .f32 :=
  subf v (broadcastTo S400x40 (shapeCast S400x1 (blkMax v) shapeCasts_S400_S400x1) broadcasts_S400x1_S400x40)

theorem blkShift_apply (v : FVec Ideal S400x40 .f32) (p : Fin 400) (q : Fin 40) :
    blkShift v (ix2 p q) = v (ix2 p q) - rowMax fun j => v (ix2 p j) := by
  unfold blkShift
  rw [subf_apply, broadcastTo_col_apply, shapeCast_col_apply, blkMax_apply]

/-- The row sums of the exponentials of a block. -/
def blkSum (w : FVec Ideal S400x40 .f32) : FVec Ideal S400 .f32 :=
  multiReduction .add [1] S400 (exp w) 0x00000000#32 reduces_S400x40_S400 (.inl rfl) rfl

theorem blkSum_apply (w : FVec Ideal S400x40 .f32) (p : Fin 400) :
    blkSum w (ix1 p) = ∑ j : Fin 40, Ideal.exp (w (ix2 p j)) := by
  unfold blkSum
  exact rowSum_read (exp w) _ _ _ p

/-- The second phase's stored value from the block's logits on. -/
def lsBlock (v : FVec Ideal S400x40 .f32) : FVec Ideal S400x40 .f32 :=
  subf (blkShift v) (broadcastTo S400x40 (log (shapeCast S400x1 (blkSum (blkShift v)) shapeCasts_S400_S400x1)) broadcasts_S400x1_S400x40)

theorem lsBlock_apply (v : FVec Ideal S400x40 .f32) (p : Fin 400) (q : Fin 40) :
    lsBlock v (ix2 p q) = lsRow (fun j => v (ix2 p j)) q := by
  unfold lsBlock lsRow
  rw [subf_apply, broadcastTo_col_apply]
  show blkShift v (ix2 p q) - Ideal.log (shapeCast S400x1 (blkSum (blkShift v)) shapeCasts_S400_S400x1 (ix2 p (0 : Fin 1))) = _
  rw [shapeCast_col_apply, blkSum_apply, blkShift_apply]
  refine congrArg (fun s => _ - Ideal.log s) (Finset.sum_congr rfl fun j _ => ?_)
  rw [blkShift_apply]

/-! ## The block's logits, and the stored value of one point of the second phase -/

/-- Row p of a block of 400 rows of an adjacency layer against the hidden array, plus the bias row: the logit at (p, j). -/
def logitK (a : Vec Ideal S1x400x10000 .f32) (Hh : Vec Ideal S10000x40 .f32) (b2r : Vec Ideal S1x40 .f32) (p : Fin 400) (j : Fin 40) : EReal :=
  (∑ l : Fin 10000, a (ix3 (0 : Fin 1) p l) * Hh (ix2 l j)) + b2r (ix2 (0 : Fin 1) j)

/-- The block's logits as the body forms them: the product into a zero accumulator, plus the broadcast bias row. -/
def logitsBlock (a : FVec Ideal S1x400x10000 .f32) (Hh : FVec Ideal S10000x40 .f32) (b2r : FVec Ideal S1x40 .f32) : FVec Ideal S400x40 .f32 :=
  addf (matmul dot_S400x10000_S10000x40_S400x40_1_0_0_1_n_n none (shapeCast S400x10000 a shapeCasts_S1x400x10000_S400x10000) Hh (constant S400x40 .f32 0x00000000#32))
    (broadcastTo S400x40 (shapeCast S1x40 b2r shapeCasts_S1x40_S1x40) broadcasts_S1x40_S400x40)

theorem logitsBlock_apply (a : Vec Ideal S1x400x10000 .f32) (Hh : Vec Ideal S10000x40 .f32) (b2r : Vec Ideal S1x40 .f32) (p : Fin 400) (j : Fin 40) :
    logitsBlock a Hh b2r (ix2 p j) = logitK a Hh b2r p j := by
  unfold logitsBlock logitK
  rw [addf_apply, mm_ls_apply, broadcastTo_1b_ab_apply, shapeCast_self]
  refine congrArg (· + _) (Finset.sum_congr rfl fun l _ => ?_)
  rw [shapeCast_1ab_ab_apply]

/-- The stored value of one point of the second phase is the log-softmax of the block's logits. -/
theorem k0_pay3_eq (a : Vec Ideal S1x400x10000 .f32) (Hh : Vec Ideal S10000x40 .f32) (b2r : Vec Ideal S1x40 .f32) :
    k0_pay3 (F := Ideal) a Hh b2r = lsBlock (logitsBlock a Hh b2r) := rfl

/-- … so at (p, q) it is the log-softmax of row p's logits at column q. -/
theorem k0_pay3_apply (a : Vec Ideal S1x400x10000 .f32) (Hh : Vec Ideal S10000x40 .f32) (b2r : Vec Ideal S1x40 .f32) (p : Fin 400) (q : Fin 40) :
    k0_pay3 (F := Ideal) a Hh b2r (ix2 p q) = lsRow (logitK a Hh b2r p) q := by
  rw [k0_pay3_eq, lsBlock_apply]
  exact congrArg (fun L => lsRow L q) (funext fun j => logitsBlock_apply a Hh b2r p j)

/-! ## The reference's log-softmax read at an index -/

/-- Row r of the second adjacency layer against the hidden array, plus the bias: the logit at (r, j). -/
def logit (adj : FVec Ideal S2x10000x10000 .f32) (Hh : FVec Ideal S10000x40 .f32) (b2 : FVec Ideal S40 .f32) (r : Fin 10000) (j : Fin 40) : EReal :=
  (∑ l : Fin 10000, adj (ix3 (1 : Fin 2) r l) * Hh (ix2 l j)) + b2 (ix1 j)

/-- The reduced index r with column k put back is (r, k). -/
theorem lift_rowR (h : Cert.ReferenceIdeal.S10000x40.Reduces [1] Cert.ReferenceIdeal.S10000) (r : Fin 10000) (k : Fin (Cert.ReferenceIdeal.S10000x40.size 1)) :
    h.lift (ix1 r) k = ix2 r (⟨k.val, k.isLt⟩ : Fin 40) := by
  funext c; apply Fin.ext
  fin_cases c <;> rfl

/-- The maximum with −∞ is the identity on the extended reals. -/
theorem max_neg_inf (y : EReal) : max (Ideal.ofBits .f32 0xFF800000#32) y = y := by
  rw [ofBits_neg_inf_f32]; exact max_eq_right bot_le

/-- The reference's logits at (r, j). -/
theorem ref_logits_apply (x0 : (⟨Cert.ReferenceIdeal.S10000x128, .f32⟩ : BufTy).Contents (Elt Ideal)) (x1 : (⟨Cert.ReferenceIdeal.S2x10000x10000, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x40, .f32⟩ : BufTy).Contents (Elt Ideal)) (x5 : (⟨Cert.ReferenceIdeal.S40, .f32⟩ : BufTy).Contents (Elt Ideal)) (r : Fin 10000) (j : Fin 40) :
    Cert.ReferenceIdeal.ReadP.val_main_v14 (F := Ideal) x0 x1 x2 x3 x4 x5 (ix2 r j) = logit x1 (Cert.ReferenceIdeal.ReadP.val_main_v10 (F := Ideal) x0 x1 x2 x3 x4) x5 r j := by
  rw [Cert.ReferenceIdeal.ReadP.val_main_v14_apply, Cert.ReferenceIdeal.ReadP.val_main_v11_apply, Cert.ReferenceIdeal.ReadP.val_main_v13_apply, Cert.ReferenceIdeal.ReadP.val_main_v12_apply]
  generalize Cert.ReferenceIdeal.ReadP.val_main_v10 (F := Ideal) x0 x1 x2 x3 x4 = Hh
  unfold logit
  refine congrArg₂ (fun s t : EReal => s + t) (Finset.sum_congr rfl fun k _ => ?_) (congrArg x5 ?_)
  · rw [Cert.ReferenceIdeal.ReadP.val_main_v9_apply, Cert.ReferenceIdeal.ReadP.val_main_v8_apply]
    have hr := r.isLt
    have hk := k.isLt
    refine congrArg₂ (fun s t : EReal => s * t) (congrArg x1 ?_) (congrArg Hh ?_)
    · funext a; apply Fin.ext
      match a with
      | ⟨0, _⟩ => rfl
      | ⟨1, _⟩ => show (r.val * 10000 + k.val) / 10000 % 10000 = r.val; omega
      | ⟨2, _⟩ => show (r.val * 10000 + k.val) % 10000 = k.val; omega
    · funext a; apply Fin.ext
      match a with
      | ⟨0, _⟩ => rfl
      | ⟨1, _⟩ => rfl
  · funext a; apply Fin.ext
    match a with
    | ⟨0, _⟩ => rfl

/-- The reference's row maximum (its reduce from −∞, then the maximum with −∞) at row r. -/
theorem ref_max_apply (x0 : (⟨Cert.ReferenceIdeal.S10000x128, .f32⟩ : BufTy).Contents (Elt Ideal)) (x1 : (⟨Cert.ReferenceIdeal.S2x10000x10000, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x40, .f32⟩ : BufTy).Contents (Elt Ideal)) (x5 : (⟨Cert.ReferenceIdeal.S40, .f32⟩ : BufTy).Contents (Elt Ideal)) (r : Fin 10000) :
    Cert.ReferenceIdeal.ReadP.val_main_call1_v2 (F := Ideal) x0 x1 x2 x3 x4 x5 (ix1 r) = rowMax fun j => Cert.ReferenceIdeal.ReadP.val_main_v14 (F := Ideal) x0 x1 x2 x3 x4 x5 (ix2 r j) := by
  rw [Cert.ReferenceIdeal.ReadP.val_main_call1_v2_apply, Cert.ReferenceIdeal.ReadP.val_main_call1_v1_apply, Cert.ReferenceIdeal.ReadP.val_main_call1_cst_0_apply]
  unfold Cert.ReferenceIdeal.ReadP.val_main_call1_v0
  generalize Cert.ReferenceIdeal.ReadP.val_main_v14 (F := Ideal) x0 x1 x2 x3 x4 x5 = V
  have h : Cert.ReferenceIdeal.S10000x40.Reduces [1] Cert.ReferenceIdeal.S10000 := by decide
  have hred := Host.reduce_eq_fold_single (α := Ideal .f32) (FloatOps.maximumf (F := Ideal) (φ := .f32)) (V : FVec Ideal Cert.ReferenceIdeal.S10000x40 .f32)
    (Cert.ReferenceIdeal.ReadP.val_main_call1_cst (F := Ideal)) Cert.ReferenceIdeal.Gen.reducesTo_S10000x40_S10000_d1 h Cert.ReferenceIdeal.Gen.h_S_ (ix1 r)
  refine (congrArg (fun t : EReal => max (Ideal.ofBits .f32 0xFF800000#32) t) hred).trans ?_
  refine (max_neg_inf _).trans ?_
  have hf : (V ∘ h.lift (ix1 r)) = fun k : Fin 40 => V (ix2 r k) := funext fun k => congrArg V (lift_rowR h r k)
  unfold rowMax
  exact congrArg (fun f => Finset.fold max (Ideal.ofBits .f32 0xFF800000#32) f (Finset.univ : Finset (Fin 40))) hf

/-- The reference's logits less the row maximum, at (r, j). -/
theorem ref_shift_apply (x0 : (⟨Cert.ReferenceIdeal.S10000x128, .f32⟩ : BufTy).Contents (Elt Ideal)) (x1 : (⟨Cert.ReferenceIdeal.S2x10000x10000, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x40, .f32⟩ : BufTy).Contents (Elt Ideal)) (x5 : (⟨Cert.ReferenceIdeal.S40, .f32⟩ : BufTy).Contents (Elt Ideal)) (r : Fin 10000) (j : Fin 40) :
    Cert.ReferenceIdeal.ReadP.val_main_call1_v5 (F := Ideal) x0 x1 x2 x3 x4 x5 (ix2 r j)
      = Cert.ReferenceIdeal.ReadP.val_main_v14 (F := Ideal) x0 x1 x2 x3 x4 x5 (ix2 r j) - rowMax fun j' => Cert.ReferenceIdeal.ReadP.val_main_v14 (F := Ideal) x0 x1 x2 x3 x4 x5 (ix2 r j') := by
  rw [Cert.ReferenceIdeal.ReadP.val_main_call1_v5_apply, Cert.ReferenceIdeal.ReadP.val_main_call1_v4_apply, Cert.ReferenceIdeal.ReadP.val_main_call1_v3_apply]
  have e : Cert.ReferenceIdeal.ReadP.idx_main_call1_v3 (Cert.ReferenceIdeal.ReadP.idx_main_call1_v4 (ix2 r j)) = ix1 r := funext fun a => Fin.ext (by
    match a with
    | ⟨0, _⟩ => rfl)
  rw [e, ref_max_apply]
  rfl

/-- The reference's row sum of the exponentials, at row r. -/
theorem ref_sum_apply (x0 : (⟨Cert.ReferenceIdeal.S10000x128, .f32⟩ : BufTy).Contents (Elt Ideal)) (x1 : (⟨Cert.ReferenceIdeal.S2x10000x10000, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x40, .f32⟩ : BufTy).Contents (Elt Ideal)) (x5 : (⟨Cert.ReferenceIdeal.S40, .f32⟩ : BufTy).Contents (Elt Ideal)) (r : Fin 10000) :
    Cert.ReferenceIdeal.ReadP.val_main_call1_v7 (F := Ideal) x0 x1 x2 x3 x4 x5 (ix1 r) = ∑ j : Fin 40, Ideal.exp (Cert.ReferenceIdeal.ReadP.val_main_call1_v5 (F := Ideal) x0 x1 x2 x3 x4 x5 (ix2 r j)) := by
  rw [Cert.ReferenceIdeal.ReadP.val_main_call1_v7_apply, Cert.ReferenceIdeal.ReadP.val_main_call1_cst_1_apply]
  refine (congrArg (fun s : EReal => s + _) Ideal.ofBits_zero_f32).trans ?_
  rw [zero_add]
  refine Finset.sum_congr rfl fun k _ => ?_
  rw [Cert.ReferenceIdeal.ReadP.val_main_call1_v6_apply]
  refine congrArg (fun i => Ideal.exp (Cert.ReferenceIdeal.ReadP.val_main_call1_v5 (F := Ideal) x0 x1 x2 x3 x4 x5 i)) (funext fun a => Fin.ext (by
    match a with
    | ⟨0, _⟩ => rfl
    | ⟨1, _⟩ => rfl))

/-- The reference's result at (r, q): the log-softmax of row r's logits at column q. -/
theorem ref_ls_apply (x0 : (⟨Cert.ReferenceIdeal.S10000x128, .f32⟩ : BufTy).Contents (Elt Ideal)) (x1 : (⟨Cert.ReferenceIdeal.S2x10000x10000, .f32⟩ : BufTy).Contents (Elt Ideal)) (x2 : (⟨Cert.ReferenceIdeal.S128x64, .f32⟩ : BufTy).Contents (Elt Ideal)) (x3 : (⟨Cert.ReferenceIdeal.S64, .f32⟩ : BufTy).Contents (Elt Ideal)) (x4 : (⟨Cert.ReferenceIdeal.S64x40, .f32⟩ : BufTy).Contents (Elt Ideal)) (x5 : (⟨Cert.ReferenceIdeal.S40, .f32⟩ : BufTy).Contents (Elt Ideal)) (r : Fin 10000) (q : Fin 40) :
    Cert.ReferenceIdeal.ReadP.val_main_v15 (F := Ideal) x0 x1 x2 x3 x4 x5 (ix2 r q) = lsRow (fun j => Cert.ReferenceIdeal.ReadP.val_main_v14 (F := Ideal) x0 x1 x2 x3 x4 x5 (ix2 r j)) q := by
  rw [Cert.ReferenceIdeal.ReadP.val_main_v15_apply, Cert.ReferenceIdeal.ReadP.val_main_call1_v10_apply, Cert.ReferenceIdeal.ReadP.val_main_call1_v9_apply, Cert.ReferenceIdeal.ReadP.val_main_call1_v8_apply]
  have e : Cert.ReferenceIdeal.ReadP.idx_main_call1_v8 (Cert.ReferenceIdeal.ReadP.idx_main_call1_v10 (ix2 r q)) = ix1 r := funext fun a => Fin.ext (by
    match a with
    | ⟨0, _⟩ => rfl)
  rw [e, ref_sum_apply, ref_shift_apply]
  unfold lsRow
  refine congrArg (fun s : EReal => _ - Ideal.log s) (Finset.sum_congr rfl fun j _ => ?_)
  rw [ref_shift_apply]

/-! ## The kernel's result is the reference's -/

/-- Row r%400 of block r/400 of the second adjacency layer is row r of it: the block's logits are the array's. -/
theorem logitK_adjRows (adj : Vec Ideal S2x10000x10000 .f32) (Hh : Vec Ideal S10000x40 .f32) (b2 : Vec Ideal S40 .f32) (b2r : Vec Ideal S1x40 .f32)
    (hb2 : ∀ j : Fin 40, b2r (ix2 (0 : Fin 1) j) = b2 (ix1 j)) (r : Fin 10000) (j : Fin 40) :
    logitK (adjRows adj 1 (⟨r.val / 400, by have := r.isLt; omega⟩ : Fin 25)) Hh b2r (⟨r.val % 400, Nat.mod_lt _ (by decide)⟩ : Fin 400) j
      = logit adj Hh b2 r j := by
  unfold logitK logit adjRows
  refine congrArg₂ (fun s t : EReal => s + t) (Finset.sum_congr rfl fun l _ => ?_) (hb2 j)
  refine congrArg (fun i => adj i * Hh (ix2 l j)) (funext fun a => Fin.ext ?_)
  match a with
  | ⟨0, _⟩ => rfl
  | ⟨1, _⟩ => show 400 * (r.val / 400) + r.val % 400 = r.val; exact Nat.div_add_mod r.val 400
  | ⟨2, _⟩ => rfl

theorem ls_eq_of (x : Vec Ideal S10000x128 .f32) (adj : Vec Ideal S2x10000x10000 .f32) (w1 : Vec Ideal S128x64 .f32) (b1 : Vec Ideal S64 .f32) (b1r : Vec Ideal S1x64 .f32) (w2 : Vec Ideal S64x40 .f32) (b2 : Vec Ideal S40 .f32) (b2r : Vec Ideal S1x40 .f32)
    (hb2 : ∀ j : Fin 40, b2r (ix2 (0 : Fin 1) j) = b2 (ix1 j))
    (h : hw (F := Ideal) x adj w1 b1r w2 = Cert.ReferenceIdeal.ReadP.val_main_v10 (F := Ideal) x adj w1 b1 w2) :
    ls (F := Ideal) x adj w1 b1r w2 b2r = Cert.ReferenceIdeal.ReadP.val_main_v15 (F := Ideal) x adj w1 b1 w2 b2 := by
  funext y
  obtain ⟨r, q, rfl⟩ : ∃ (r : Fin 10000) (q : Fin 40), y = ix2 r q := ⟨y 0, y 1, eq_ix2 y⟩
  refine Eq.trans ?_ (ref_ls_apply x adj w1 b1 w2 b2 r q).symm
  have e : (fun j : Fin 40 => Cert.ReferenceIdeal.ReadP.val_main_v14 (F := Ideal) x adj w1 b1 w2 b2 (ix2 r j))
      = logit adj (Cert.ReferenceIdeal.ReadP.val_main_v10 (F := Ideal) x adj w1 b1 w2) b2 r :=
    funext fun j => ref_logits_apply x adj w1 b1 w2 b2 r j
  rw [e]
  unfold ls lsRows
  rw [h]
  generalize Cert.ReferenceIdeal.ReadP.val_main_v10 (F := Ideal) x adj w1 b1 w2 = Hh
  unfold rowLoc rowBlk
  rw [k0_pay3_apply]
  exact congrArg (fun L => lsRow L q) (funext fun j => logitK_adjRows adj Hh b2 b2r hb2 r j)

end Cert.KernelIdeal.Hand

end
-- ==== Proof.ValueTop.lean ====
/-
  The kernel's result against the reference's, at the extended reals.

  The kernel's result array is `LS` of the arrays as the region finds them: the launched arguments, and the one-row
  reshapes of b1 and b2 that @main makes before the region. At the ideal instance `LS` is the reference's composed term:
  x · W1 is one product on both sides, HW = relu(adj₀ · (x · W1) + b1) · W2 agrees row by row (the kernel forms it
  block of 400 rows by block), and so does log_softmax(adj₁ · HW + b2), with the same association of every sum — no
  finiteness of the inputs is used.
-/
import proofs.«146803_g30416958390823_retrytranche2_1219_23_alg».proof.Proof.Gen.KernelIdeal.Skeleton
import proofs.«146803_g30416958390823_retrytranche2_1219_23_alg».proof.Proof.Launch
import proofs.«146803_g30416958390823_retrytranche2_1219_23_alg».proof.Proof.ValueHW
import proofs.«146803_g30416958390823_retrytranche2_1219_23_alg».proof.Proof.ValueLS
import Idealize.ShloMosaic.Lib.StableHlo.Run

noncomputable section

set_option maxRecDepth 16384

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The region finds b1's one-row reshape where @main put it. -/
theorem V_main_v0 (c : Dev nD) :
    (V m c main_v0 : Vec F S1x64 .f32) = shapeCast S1x64 (m ((c : Thread nD τ).loc main_arg3)) shapeCasts_S64_S1x64 := by
  dsimp only [Gen.V, Gen.hostOps0]; after_results; rfl

/-- The region finds b2's one-row reshape where @main put it. -/
theorem V_main_v1 (c : Dev nD) :
    (V m c main_v1 : Vec F S1x40 .f32) = shapeCast S1x40 (m ((c : Thread nD τ).loc main_arg5)) shapeCasts_S40_S1x40 := by
  dsimp only [Gen.V, Gen.hostOps0]; after_results; rfl

/-- The kernel's result is the reference's composed term of the launched arguments. -/
theorem LS_eq_ref (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.ValueP.res_main_v15 m' c = LS (F := Ideal) m c := by
  rw [Cert.ReferenceIdeal.ReadP.val_main_v15_eq, h0, h1, h2, h3, h4, h5]
  unfold LS
  rw [V_main_arg0, V_main_arg1, V_main_arg2, V_main_arg4]
  have hb1 : ∀ j : Fin 64, (V m c main_v0 : Vec Ideal S1x64 .f32) (ix2 (0 : Fin 1) j) = (m ((c.tc : Thread nD τ).loc main_arg3) : Vec Ideal S64 .f32) (ix1 j) := fun j => by
    rw [V_main_v0]; exact shapeCast_a_1a_apply _ _ _ _
  have hb2 : ∀ j : Fin 40, (V m c main_v1 : Vec Ideal S1x40 .f32) (ix2 (0 : Fin 1) j) = (m ((c.tc : Thread nD τ).loc main_arg5) : Vec Ideal S40 .f32) (ix1 j) := fun j => by
    rw [V_main_v1]; exact shapeCast_a_1a_apply _ _ _ _
  exact (ls_eq_of _ _ _ _ _ _ _ _ hb2 (hw_eq _ _ _ _ _ _ hb1)).symm

end Cert.KernelIdeal.Hand

end
-- ==== Proof.lean ====
/-
  The certificate of the fused two-layer graph convolution
      out = log_softmax(adj₁ · (relu(adj₀ · (x · W1) + b1) · W2) + b2)
  as one kernel over a grid of 2 × 25 points against its jnp reference.

  The kernel keeps x · W1 and HW = relu(adj₀ · (x · W1) + b1) · W2 in scratch buffers across grid points and writes its
  output array back once, after the last point; each of its stores covers only a block of 400 rows. The frames (of the
  word-level program and of its idealization, from one text generic in the float instance) therefore run the pipeline
  over proof data that constrain, rather than name, what the output's staging buffer holds point by point, with an
  invariant that says which rows of the scratch buffers are already right. At the extended reals the result array is
  then read off as one function of the launched arrays, which is the reference's composed term: every sum has the same
  association on both sides, so the precondition (finite inputs) is not used. The idealization rewrote nothing:
  `preserves` is trivial.
-/
import proofs.«146803_g30416958390823_retrytranche2_1219_23_alg».proof.Defs
import proofs.«146803_g30416958390823_retrytranche2_1219_23_alg».proof.Proof.Gen.Kernel
import proofs.«146803_g30416958390823_retrytranche2_1219_23_alg».proof.Proof.Gen.KernelIdeal
import proofs.«146803_g30416958390823_retrytranche2_1219_23_alg».proof.Proof.Gen.ReferenceIdeal
import proofs.«146803_g30416958390823_retrytranche2_1219_23_alg».proof.Proof.Gen.Pre_finite_inputs
import proofs.«146803_g30416958390823_retrytranche2_1219_23_alg».proof.Proof.Bits.Launch
import proofs.«146803_g30416958390823_retrytranche2_1219_23_alg».proof.Proof.ValueTop
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the kernel's function of them. -/
theorem algebraic : Cert.algebraic_KernelIdeal_ReferenceIdeal := by
  intro m ρ m' ρ' _ hagree
  refine ⟨fun c => Cert.KernelIdeal.Hand.LS (F := Ideal) m c, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.KernelIdeal.Hand.LS_eq_ref m m' c (hagree c).1 (hagree c).2.1 (hagree c).2.2.1 (hagree c).2.2.2.1
    (hagree c).2.2.2.2.1 (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
